-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S64x16 .f32) (main_arg6 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x64 .f32) (main_arg4 : FVec F S64 .f32) (main_arg5 : FVec F S64x16 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x64 : Shape := ⟨2, ![100000, 64]⟩
abbrev S5000x512 : Shape := ⟨2, ![5000, 512]⟩
abbrev S5000x64 : Shape := ⟨2, ![5000, 64]⟩
abbrev S3300000x1 : Shape := ⟨2, ![3300000, 1]⟩
abbrev S3300000x64 : Shape := ⟨2, ![3300000, 64]⟩
abbrev S1x64 : Shape := ⟨2, ![1, 64]⟩
abbrev S100000x16 : Shape := ⟨2, ![100000, 16]⟩
abbrev S10000x64 : Shape := ⟨2, ![10000, 64]⟩
abbrev S10000x16 : Shape := ⟨2, ![10000, 16]⟩
abbrev S3300000x16 : Shape := ⟨2, ![3300000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 139
  | .vmem => 14
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x64, .f32⟩
  | 4 => ⟨S64, .f32⟩
  | 5 => ⟨S64x16, .f32⟩
  | 6 => ⟨S16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x64, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x64, .f32⟩
  | 66 => ⟨S3300000x1, .f32⟩
  | 67 => ⟨S3300000x64, .f32⟩
  | 68 => ⟨S3300000x64, .f32⟩
  | 69 => ⟨S_, .f32⟩
  | 70 => ⟨S100000x64, .f32⟩
  | 71 => ⟨S3300000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x16, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000, .f32⟩
  | 118 => ⟨S3300000, .f32⟩
  | 119 => ⟨S_, .i32⟩
  | 120 => ⟨S3300000, .i32⟩
  | 121 => ⟨S3300000, .i1⟩
  | 122 => ⟨S_, .i32⟩
  | 123 => ⟨S3300000, .i32⟩
  | 124 => ⟨S3300000, .i32⟩
  | 125 => ⟨S3300000, .i32⟩
  | 126 => ⟨S3300000x1, .i32⟩
  | 127 => ⟨S3300000x16, .f32⟩
  | _ => ⟨S100000x512, .f32⟩

abbrev hbmTy0_1 (i : Nat) : BufTy := match i % 128 with
  | 0 => ⟨S3300000x1, .f32⟩
  | 1 => ⟨S3300000x16, .f32⟩
  | 2 => ⟨S3300000x16, .f32⟩
  | 3 => ⟨S_, .f32⟩
  | 4 => ⟨S100000x16, .f32⟩
  | 5 => ⟨S3300000x1, .i32⟩
  | 6 => ⟨S100000x16, .f32⟩
  | 7 => ⟨S1x16, .f32⟩
  | 8 => ⟨S100000x16, .f32⟩
  | 9 => ⟨S100000x16, .f32⟩
  | 10 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S64x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_c_21 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  reduces_S10000x16_S10000 : S10000x16.Reduces [1] S10000
  shapeCasts_S10000_S10000x1 : S10000.ShapeCasts S10000x1
  broadcasts_S10000x1_S10000x16 : S10000x1.Broadcasts S10000x16
  dot_S5000x512_S512x64_S5000x64_1_0_0_1_n_n_wf : DotDims.WF S5000x512 S512x64 S5000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x16_S10000x16_1_0_0_1_n_n_wf : DotDims.WF S10000x64 S64x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v95) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S10000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x64 : Shape := ⟨2, ![100000, 64]⟩
abbrev S3300000x1 : Shape := ⟨2, ![3300000, 1]⟩
abbrev S3300000x64 : Shape := ⟨2, ![3300000, 64]⟩
abbrev S1x64 : Shape := ⟨2, ![1, 64]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 153
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x64, .f32⟩
  | 4 => ⟨S64, .f32⟩
  | 5 => ⟨S64x16, .f32⟩
  | 6 => ⟨S16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x64, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x64, .f32⟩
  | 66 => ⟨S3300000x1, .f32⟩
  | 67 => ⟨S3300000x64, .f32⟩
  | 68 => ⟨S3300000x64, .f32⟩
  | 69 => ⟨S_, .f32⟩
  | 70 => ⟨S100000x64, .f32⟩
  | 71 => ⟨S3300000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x16, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000, .f32⟩
  | 118 => ⟨S3300000, .f32⟩
  | 119 => ⟨S_, .i32⟩
  | 120 => ⟨S3300000, .i32⟩
  | 121 => ⟨S3300000, .i1⟩
  | 122 => ⟨S_, .i32⟩
  | 123 => ⟨S3300000, .i32⟩
  | 124 => ⟨S3300000, .i32⟩
  | 125 => ⟨S3300000, .i32⟩
  | 126 => ⟨S3300000x1, .i32⟩
  | 127 => ⟨S3300000x16, .f32⟩
  | _ => ⟨S100000x512, .f32⟩

abbrev hbmTy0_1 (i : Nat) : BufTy := match i % 128 with
  | 0 => ⟨S3300000x1, .f32⟩
  | 1 => ⟨S3300000x16, .f32⟩
  | 2 => ⟨S3300000x16, .f32⟩
  | 3 => ⟨S_, .f32⟩
  | 4 => ⟨S100000x16, .f32⟩
  | 5 => ⟨S3300000x1, .i32⟩
  | 6 => ⟨S100000x16, .f32⟩
  | 7 => ⟨S1x16, .f32⟩
  | 8 => ⟨S100000x16, .f32⟩
  | 9 => ⟨S100000x16, .f32⟩
  | 10 => ⟨S_, .f32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x16, .f32⟩
  | 17 => ⟨S100000x16, .f32⟩
  | 18 => ⟨S100000x16, .f32⟩
  | 19 => ⟨S_, .f32⟩
  | 20 => ⟨S100000, .f32⟩
  | 21 => ⟨S100000x1, .f32⟩
  | 22 => ⟨S100000x1, .f32⟩
  | 23 => ⟨S100000x16, .f32⟩
  | 24 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_cst : Ref sig .tc := ⟨.hbm, 76, rfl⟩
abbrev main_call2_v0 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_call3_v0 : Ref sig .tc := ⟨.hbm, 88, rfl⟩
abbrev main_call3_v1 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call4_v0 : Ref sig .tc := ⟨.hbm, 96, rfl⟩
abbrev main_call4_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_18 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_c_21 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call5_cst : Ref sig .tc := ⟨.hbm, 138, rfl⟩
abbrev main_call5_v0 : Ref sig .tc := ⟨.hbm, 139, rfl⟩
abbrev main_call5_cst_0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_call5_v5 : Ref sig .tc := ⟨.hbm, 145, rfl⟩
abbrev main_call5_v6 : Ref sig .tc := ⟨.hbm, 146, rfl⟩
abbrev main_call5_cst_1 : Ref sig .tc := ⟨.hbm, 147, rfl⟩
abbrev main_call5_v7 : Ref sig .tc := ⟨.hbm, 148, rfl⟩
abbrev main_call5_v8 : Ref sig .tc := ⟨.hbm, 149, rfl⟩
abbrev main_call5_v9 : Ref sig .tc := ⟨.hbm, 150, rfl⟩
abbrev main_call5_v10 : Ref sig .tc := ⟨.hbm, 151, rfl⟩
abbrev main_v96 : Ref sig .tc := ⟨.hbm, 152, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x64_S100000x64_1_0_0_1_n_n_wf : DotDims.WF S100000x512 S512x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Region0.lean ====
/-
  Region 0 of the kernel's @main, read as a value: the row-blocked product x · W1.

  The pipeline walks the 100000 rows of `x` in 20 blocks of 5000 rows; at each point the body multiplies the
  [5000, 512] block by the whole [512, 64] weight (the change of float format in front of the product is the
  identity on the extended reals, and the accumulator is the zero splat) and stores the [5000, 64] result, which
  the pipeline writes back as rows 5000·t … 5000·t + 4999 of the output. Hence the output array, index by index,
  is the plain matrix product: entry (r, q) is the sum over k of x(r, k) · W1(k, q).

  The argument, in three steps.
  1. One entry of one block. The product stored at a point, read at entry (p, q) of its block, is the sum over
     the contraction index of the block product of the two operands' entries; that index has a single axis of
     extent 512, so the sum is re-indexed over k = 0 … 511, the left operand read at (p, k) and the right at (k, q).
  2. Where a block's entries sit. A block's entry sits in its array, on each axis, at block index × block extent
     + the entry's own coordinate. At point t the left operand's row-block index is t, as the output's is, and every
     other block index is 0: so entry (p, k) of the left block is x(5000·t + p, k), entry (k, q) of the weight is
     W1(k, q), and entry (p, q) of the stored block is the whole product's entry (5000·t + p, q).
  3. The blocks tile the rows. Row r lies in the block of point r / 5000, and every point writes its block back;
     so every entry of the output array is covered, and the array is the whole product.
-/
import proofs.«123366_j53472342835547_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)

/-- The left operand's index for output entry `i` and contraction position `k`: row of `i`, column `k`. -/
abbrev lhsAt (i : S100000x64.Idx) (k : Fin 512) : S100000x512.Idx := fun a => match a with
  | ⟨0, _⟩ => ⟨(i 0).val, (i 0).isLt⟩
  | ⟨1, _⟩ => ⟨k.val, k.isLt⟩
/-- The right operand's index: row `k`, column of `i`. -/
abbrev rhsAt (i : S100000x64.Idx) (k : Fin 512) : S512x64.Idx := fun a => match a with
  | ⟨0, _⟩ => ⟨k.val, k.isLt⟩
  | ⟨1, _⟩ => ⟨(i 1).val, (i 1).isLt⟩

/-- The whole-array matrix product over the extended reals. -/
def prod (x : S100000x512.Idx → EReal) (w : S512x64.Idx → EReal) : S100000x64.Idx → EReal :=
  fun i => ∑ k : Fin 512, x (lhsAt i k) * w (rhsAt i k)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-! ## The block product's operand indices, axis by axis -/

/-- On the left operand's row axis, which is not contracted, the operand index is the output entry's row. -/
theorem lhs_blk_0 (i : S5000x64.Idx) (q : dot_S5000x512_S512x64_S5000x64_1_0_0_1_n_n.contr.Idx) :
    (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
/-- On the left operand's column axis, the contracted one, it is the contraction position. -/
theorem lhs_blk_1 (i : S5000x64.Idx) (q : dot_S5000x512_S512x64_S5000x64_1_0_0_1_n_n.contr.Idx) :
    (dot_S5000x512_S512x64_S5000x64_1_0_0_1_n_n.lhsIdx i q 1).val = (q ⟨0, by decide⟩).val :=
  dot_S5000x512_S512x64_S5000x64_1_0_0_1_n_n.lhsIdx_val_of_single rfl i q
/-- On the right operand's row axis, the contracted one, it is the contraction position. -/
theorem rhs_blk_0 (i : S5000x64.Idx) (q : dot_S5000x512_S512x64_S5000x64_1_0_0_1_n_n.contr.Idx) :
    (dot_S5000x512_S512x64_S5000x64_1_0_0_1_n_n.rhsIdx i q 0).val = (q ⟨0, by decide⟩).val :=
  dot_S5000x512_S512x64_S5000x64_1_0_0_1_n_n.rhsIdx_val_of_single rfl i q
/-- On the right operand's column axis, which is not contracted, it is the output entry's column. -/
theorem rhs_blk_1 (i : S5000x64.Idx) (q : dot_S5000x512_S512x64_S5000x64_1_0_0_1_n_n.contr.Idx) :
    (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- Inside a block: the left operand's index for block entry `j` and contraction position `k`. -/
abbrev lhsBlk (j : S5000x64.Idx) (k : Fin 512) : S5000x512.Idx := fun a => match a with
  | ⟨0, _⟩ => ⟨(j 0).val, (j 0).isLt⟩
  | ⟨1, _⟩ => ⟨k.val, k.isLt⟩
/-- Inside a block: the right operand's index. -/
abbrev rhsBlk (j : S5000x64.Idx) (k : Fin 512) : S512x64.Idx := fun a => match a with
  | ⟨0, _⟩ => ⟨k.val, k.isLt⟩
  | ⟨1, _⟩ => ⟨(j 1).val, (j 1).isLt⟩

/-- The body's payload at a block entry: the sum over the 512 contraction positions. -/
theorem pay_apply (x : Vec Ideal S5000x512 .f32) (w : Vec Ideal S512x64 .f32) (j : S5000x64.Idx) :
    k0_pay1 (F := Ideal) x w j = ∑ k : Fin 512, x (lhsBlk j k) * w (rhsBlk j k) := by
  unfold k0_pay1
  simp only [matmul]
  rw [Ideal.matmul_constant_zero_apply, ← Equiv.sum_comp (ValueIdx.contrEquiv1 dot_S5000x512_S512x64_S5000x64_1_0_0_1_n_n 512 rfl rfl).symm]
  refine Finset.sum_congr rfl fun k _ => ?_
  have hk := ValueIdx.contrEquiv1_symm_val dot_S5000x512_S512x64_S5000x64_1_0_0_1_n_n 512 rfl rfl k
  have el : dot_S5000x512_S512x64_S5000x64_1_0_0_1_n_n.lhsIdx j ((ValueIdx.contrEquiv1 dot_S5000x512_S512x64_S5000x64_1_0_0_1_n_n 512 rfl rfl).symm k) = lhsBlk j k := funext fun a => Fin.ext (by
    match a with
    | ⟨0, _⟩ => exact lhs_blk_0 _ _
    | ⟨1, _⟩ => exact (lhs_blk_1 _ _).trans hk)
  have er : dot_S5000x512_S512x64_S5000x64_1_0_0_1_n_n.rhsIdx j ((ValueIdx.contrEquiv1 dot_S5000x512_S512x64_S5000x64_1_0_0_1_n_n 512 rfl rfl).symm k) = rhsBlk j k := funext fun a => Fin.ext (by
    match a with
    | ⟨0, _⟩ => exact (rhs_blk_0 _ _).trans hk
    | ⟨1, _⟩ => exact rhs_blk_1 _ _)
  rw [el, er]
  rfl

/-! ## From the blocks to the array -/

/-- The printed index maps over the grid: the row-block index of the left operand is the output's, which is the
    point itself; every other block index is zero. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One entry of one block: if the block operands read, along the contraction, what the whole arrays hold at
    row `i 0` and column `i 1`, the payload's entry `j` is the whole product's entry `i`. -/
theorem point_eq (X : S100000x512.Idx → EReal) (W : S512x64.Idx → EReal)
    (x : Vec Ideal S5000x512 .f32) (w : Vec Ideal S512x64 .f32) (j : S5000x64.Idx) (i : S100000x64.Idx)
    (hx : ∀ k : Fin 512, x (lhsBlk j k) = X (lhsAt i k)) (hw : ∀ k : Fin 512, w (rhsBlk j k) = W (rhsAt i k)) :
    k0_pay1 (F := Ideal) x w j = prod X W i := by
  rw [pay_apply]
  exact Finset.sum_congr rfl fun k _ => by rw [hx k, hw k]

/-- What point `t` writes back is block `t` of the whole product of the arrays as the region finds them. -/
theorem flushed_eq (c : Dev nD) (t : Fin cfg0.N) :
    (dat0 (F := Ideal) V c).flushed 2 t
      = ((cfg0.win 2).blk t).view.read (Elt Ideal) (prod (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x512) hz, View.ld_unit_zero (S := S512x64) hz]
  obtain ⟨e0, e1, e2, e3, e4, e5⟩ := idx_facts t
  funext j
  show k0_pay1 (F := Ideal) (iblk0 V c 0 t) (iblk0 V c 1 t) j
    = prod (V c main_arg0) (V c main_arg3) (((cfg0.win 2).blk t).view.emb j)
  refine point_eq (V c main_arg0) (V c main_arg3) (iblk0 V c 0 t) (iblk0 V c 1 t) j
    (((cfg0.win 2).blk t).view.emb j) (fun k => ?_) (fun k => ?_)
  · show V c main_arg0 (((cfg0.win 0).blk t).view.emb (lhsBlk j k))
      = V c main_arg0 (lhsAt (((cfg0.win 2).blk t).view.emb j) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 512 + 1 * k.val = k.val
      omega
  · show V c main_arg3 (((cfg0.win 1).blk t).view.emb (rhsBlk j k))
      = V c main_arg3 (rhsAt (((cfg0.win 2).blk t).view.emb j) k)
    refine congrArg _ (funext fun a => Fin.ext ?_)
    match a with
    | ⟨0, _⟩ =>
      show win0_1.index t (0 : Fin 2) * 512 + 1 * k.val = k.val
      omega
    | ⟨1, _⟩ =>
      show win0_1.index t (1 : Fin 2) * 64 + 1 * (j 1).val = win0_2.index t (1 : Fin 2) * 64 + 1 * (j 1).val
      omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v9).slice (win0_2.rect t)).set ↔ _
  rw [View.set_slice_whole, Rect.mem_set_unit]
  exact Iff.rfl

/-- The blocks tile the array: row `r` lies in the block of point `r / 5000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, e4, e5⟩ := idx_facts ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    omega

/-- After region 0 the output array is the product of the two input arrays as the region finds them. -/
theorem final (c : Dev nD) :
    (dat0 (F := Ideal) V c).arrAt 2 cfg0.N = prod (V c main_arg0) (V c main_arg3) := by
  exact (dat0 (F := Ideal) V c).arrAt_eq_of_cover 2 (prod (V c main_arg0) (V c main_arg3))
    (fun t _ => flushed_eq V c t) cover

end Cert.KernelIdeal.Region0

end
-- ==== Proof.Region1.lean ====
/-
  Region 1 of the kernel's @main, read as a value: the row-blocked product h · W2.

  The pipeline walks the 100000 rows of the hidden array in 10 blocks of 10000 rows; at each point the body
  multiplies the [10000, 64] block by the whole [64, 16] weight (the identity reshape and the change of float
  format in front of the product are the identity on the extended reals, and the accumulator is the zero splat)
  and stores the [10000, 16] result, which the pipeline writes back as rows 10000·t … 10000·t + 9999 of the
  output. Hence the output array, index by index, is the plain matrix product: entry (r, q) is the sum over k of
  h(r, k) · W2(k, q).

  The argument, in three steps.
  1. One entry of one block. The reshape of the left block to its own shape changes nothing. The product stored at
     a point, read at entry (p, q) of its block, is the sum over the contraction index of the block product of the
     two operands' entries; that index has a single axis of extent 64, so the sum is re-indexed over k = 0 … 63, the
     left operand read at (p, k) and the right at (k, q).
  2. Where a block's entries sit. A block's entry sits in its array, on each axis, at block index × block extent
     + the entry's own coordinate. At point t the left operand's row-block index is t, as the output's is, and every
     other block index is 0: so entry (p, k) of the left block is h(10000·t + p, k), entry (k, q) of the weight is
     W2(k, q), and entry (p, q) of the stored block is the whole product's entry (10000·t + p, q).
  3. The blocks tile the rows. Row r lies in the block of point r / 10000, and every point writes its block back;
     so every entry of the output array is covered, and the array is the whole product.
-/
import proofs.«123366_j53472342835547_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Region1

open Cert.KernelIdeal Cert.KernelIdeal.Gen Idealize.ShloMosaic Idealize.ShloMosaic.TcCoe Idealize.SL.Sem
open Idealize.ShloMosaic.Pipeline (Dat)

/-- The left operand's index for output entry `i` and contraction position `k`: row of `i`, column `k`. -/
abbrev lhsAt (i : S100000x16.Idx) (k : Fin 64) : S100000x64.Idx := fun a => match a with
  | ⟨0, _⟩ => ⟨(i 0).val, (i 0).isLt⟩
  | ⟨1, _⟩ => ⟨k.val, k.isLt⟩
/-- The right operand's index: row `k`, column of `i`. -/
abbrev rhsAt (i : S100000x16.Idx) (k : Fin 64) : S64x16.Idx := fun a => match a with
  | ⟨0, _⟩ => ⟨k.val, k.isLt⟩
  | ⟨1, _⟩ => ⟨(i 1).val, (i 1).isLt⟩

/-- The whole-array matrix product over the extended reals. -/
def prod (x : S100000x64.Idx → EReal) (w : S64x16.Idx → EReal) : S100000x16.Idx → EReal :=
  fun i => ∑ k : Fin 64, x (lhsAt i k) * w (rhsAt i k)

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-! ## The block product's operand indices, axis by axis -/

/-- On the left operand's row axis, which is not contracted, the operand index is the output entry's row. -/
theorem lhs_blk_0 (i : S10000x16.Idx) (q : dot_S10000x64_S64x16_S10000x16_1_0_0_1_n_n.contr.Idx) :
    (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
/-- On the left operand's column axis, the contracted one, it is the contraction position. -/
theorem lhs_blk_1 (i : S10000x16.Idx) (q : dot_S10000x64_S64x16_S10000x16_1_0_0_1_n_n.contr.Idx) :
    (dot_S10000x64_S64x16_S10000x16_1_0_0_1_n_n.lhsIdx i q 1).val = (q ⟨0, by decide⟩).val :=
  dot_S10000x64_S64x16_S10000x16_1_0_0_1_n_n.lhsIdx_val_of_single rfl i q
/-- On the right operand's row axis, the contracted one, it is the contraction position. -/
theorem rhs_blk_0 (i : S10000x16.Idx) (q : dot_S10000x64_S64x16_S10000x16_1_0_0_1_n_n.contr.Idx) :
    (dot_S10000x64_S64x16_S10000x16_1_0_0_1_n_n.rhsIdx i q 0).val = (q ⟨0, by decide⟩).val :=
  dot_S10000x64_S64x16_S10000x16_1_0_0_1_n_n.rhsIdx_val_of_single rfl i q
/-- On the right operand's column axis, which is not contracted, it is the output entry's column. -/
theorem rhs_blk_1 (i : S10000x16.Idx) (q : dot_S10000x64_S64x16_S10000x16_1_0_0_1_n_n.contr.Idx) :
    (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-- Inside a block: the left operand's index for block entry `j` and contraction position `k`. -/
abbrev lhsBlk (j : S10000x16.Idx) (k : Fin 64) : S10000x64.Idx := fun a => match a with
  | ⟨0, _⟩ => ⟨(j 0).val, (j 0).isLt⟩
  | ⟨1, _⟩ => ⟨k.val, k.isLt⟩
/-- Inside a block: the right operand's index. -/
abbrev rhsBlk (j : S10000x16.Idx) (k : Fin 64) : S64x16.Idx := fun a => match a with
  | ⟨0, _⟩ => ⟨k.val, k.isLt⟩
  | ⟨1, _⟩ => ⟨(j 1).val, (j 1).isLt⟩

/-- The body's payload at a block entry: the reshape to the same shape is the identity, and what is left is the
    sum over the 64 contraction positions. -/
theorem pay_apply (x : Vec Ideal S10000x64 .f32) (w : Vec Ideal S64x16 .f32) (j : S10000x16.Idx) :
    k1_pay1 (F := Ideal) x w j = ∑ k : Fin 64, x (lhsBlk j k) * w (rhsBlk j k) := by
  unfold k1_pay1
  simp only [matmul, shapeCast_self]
  rw [Ideal.matmul_constant_zero_apply, ← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  have el : dot_S10000x64_S64x16_S10000x16_1_0_0_1_n_n.lhsIdx j ((ValueIdx.contrEquiv1 dot_S10000x64_S64x16_S10000x16_1_0_0_1_n_n 64 rfl rfl).symm k) = lhsBlk j k := funext fun a => Fin.ext (by
    match a with
    | ⟨0, _⟩ => exact lhs_blk_0 _ _
    | ⟨1, _⟩ => exact (lhs_blk_1 _ _).trans hk)
  have er : dot_S10000x64_S64x16_S10000x16_1_0_0_1_n_n.rhsIdx j ((ValueIdx.contrEquiv1 dot_S10000x64_S64x16_S10000x16_1_0_0_1_n_n 64 rfl rfl).symm k) = rhsBlk j k := funext fun a => Fin.ext (by
    match a with
    | ⟨0, _⟩ => exact (rhs_blk_0 _ _).trans hk
    | ⟨1, _⟩ => exact rhs_blk_1 _ _)
  rw [el, er]
  rfl

/-! ## From the blocks to the array -/

/-- The printed index maps over the grid: the row-block index of the left operand is the output's, which is the
    point itself; every other block index is zero. -/
theorem idx_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- One entry of one block: if the block operands read, along the contraction, what the whole arrays hold at
    row `i 0` and column `i 1`, the payload's entry `j` is the whole product's entry `i`. -/
theorem point_eq (X : S100000x64.Idx → EReal) (W : S64x16.Idx → EReal)
    (x : Vec Ideal S10000x64 .f32) (w : Vec Ideal S64x16 .f32) (j : S10000x16.Idx) (i : S100000x16.Idx)
    (hx : ∀ k : Fin 64, x (lhsBlk j k) = X (lhsAt i k)) (hw : ∀ k : Fin 64, w (rhsBlk j k) = W (rhsAt i k)) :
    k1_pay1 (F := Ideal) x w j = prod X W i := by
  rw [pay_apply]
  exact Finset.sum_congr rfl fun k _ => by rw [hx k, hw k]

/-- What point `t` writes back is block `t` of the whole product of the arrays as the region finds them. -/
theorem flushed_eq (c : Dev nD) (t : Fin cfg1.N) :
    (dat1 (F := Ideal) V c).flushed 2 t
      = ((cfg1.win 2).blk t).view.read (Elt Ideal) (prod (V c main_v52) (V c main_arg5)) := by
  show (cfg1.win 2).cut (grid1.coords t) ((dat1 (F := Ideal) V c).after 2 t) = _
  rw [after1_2]
  unfold out1_2
  rw [View.canon_unit_zero hz]
  simp only [View.ld_unit_zero (S := S10000x64) hz, View.ld_unit_zero (S := S64x16) hz]
  obtain ⟨e0, e1, e2, e3, e4, e5⟩ := idx_facts t
  funext j
  show k1_pay1 (F := Ideal) (iblk1 V c 0 t) (iblk1 V c 1 t) j
    = prod (V c main_v52) (V c main_arg5) (((cfg1.win 2).blk t).view.emb j)
  refine point_eq (V c main_v52) (V c main_arg5) (iblk1 V c 0 t) (iblk1 V c 1 t) j
    (((cfg1.win 2).blk t).view.emb j) (fun k => ?_) (fun k => ?_)
  · show V c main_v52 (((cfg1.win 0).blk t).view.emb (lhsBlk j k))
      = V c main_v52 (lhsAt (((cfg1.win 2).blk t).view.emb j) k)
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 64 + 1 * k.val = k.val
      omega
  · show V c main_arg5 (((cfg1.win 1).blk t).view.emb (rhsBlk j k))
      = V c main_arg5 (rhsAt (((cfg1.win 2).blk t).view.emb j) k)
    refine congrArg _ (funext fun a => Fin.ext ?_)
    match a with
    | ⟨0, _⟩ =>
      show win1_1.index t (0 : Fin 2) * 64 + 1 * k.val = k.val
      omega
    | ⟨1, _⟩ =>
      show win1_1.index t (1 : Fin 2) * 16 + 1 * (j 1).val = win1_2.index t (1 : Fin 2) * 16 + 1 * (j 1).val
      omega

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v53).slice (win1_2.rect t)).set ↔ _
  rw [View.set_slice_whole, Rect.mem_set_unit]
  exact Iff.rfl

/-- The blocks tile the array: row `r` lies in the block of point `r / 10000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  have ht : (i 0).val / 10000 < cfg1.N := by rw [hN]; omega
  obtain ⟨-, -, -, -, e4, e5⟩ := idx_facts ⟨(i 0).val / 10000, ht⟩
  have e4' : win1_2.index ⟨(i 0).val / 10000, ht⟩ (0 : Fin 2) = (i 0).val / 10000 := e4
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 16 ≤ (i 1).val
      ∧ (i 1).val < win1_2.index ⟨(i 0).val / 10000, ht⟩ (1 : Fin 2) * 16 + 16
    omega

/-- After region 1 the output array is the product of the two input arrays as the region finds them. -/
theorem final (c : Dev nD) :
    (dat1 (F := Ideal) V c).arrAt 2 cfg1.N = prod (V c main_v52) (V c main_arg5) := by
  exact (dat1 (F := Ideal) V c).arrAt_eq_of_cover 2 (prod (V c main_v52) (V c main_arg5))
    (fun t _ => flushed_eq V c t) cover

end Cert.KernelIdeal.Region1

end
-- ==== Proof.LibKeepdims.lean ====
/-
  Two layout readings that every row statistic kept as a column needs: a vector of `a` entries
  viewed as an `a × 1` column reads its entry `i` at `(i, 0)`, and an `a × 1` column broadcast to
  `a × b` reads, at `(p, c)`, the column's entry of row `p` — the column is repeated along the
  second axis. Both are stated over literal shapes with the indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` vector cast to an `[a, 1]` column reads, at `(i, u)`, the vector at `i`, whatever the unit
    coordinate `u`: both indices sit at row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`: the first axis is
    carried (or, when `a = 1`, is the unit axis read at `0`, which is `p`), the unit second axis is read at `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.Region2.lean ====
/-
  Region 2 of the kernel's @main, read as a value: the row-blocked log-softmax.

  The pipeline walks the 100000 rows of the logits in 10 blocks of 10000 rows; at each point the body takes, row by
  row, the maximum m of the 16 entries (a fold of max from the start value -inf), subtracts it, sums the
  exponentials of the 16 differences, and stores z - log(sum) where z = x - m. Every row of a block is a row of the
  array and the body treats rows independently, so the output array, index by index, is the row-wise log-softmax
  of the input array.
  The proof has two halves. On one block, the value the body stores is read entry by entry: the first cast is
  the identity; the lane reduction by max is the fold of max over the 16 lanes from the start word, which stays a
  word; a row statistic kept as a column and repeated along the lanes reads, at an entry, the statistic of the
  entry's row; the lane reduction by addition is the sum over the 16 lanes; subtraction, exp and log act entry by
  entry. From the blocks to the array: row p of block t is row 10000 t + p of the array, so the fold of max and
  the sum of exponentials over a block's row are the array's at that row, by congruence of the folded functions,
  lane by lane. What point t writes back is therefore block t of the log-softmax of the array; the 10 blocks cover
  the 100000 rows (row r lies in block r / 10000) and every point writes back; so the array after the region is
  the log-softmax of the array the region found.
-/
import proofs.«123366_j53472342835547_1_alg».proof.Proof.Gen.KernelIdeal.Frame
import proofs.«123366_j53472342835547_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.Pipeline (Dat)

/-- Entry `k` of row `r`. -/
abbrev at2 (r : Fin 100000) (k : Fin 16) : S100000x16.Idx := fun a => match a with
  | ⟨0, _⟩ => ⟨r.val, r.isLt⟩
  | ⟨1, _⟩ => ⟨k.val, k.isLt⟩

/-- The maximum of row `r`: the fold of `max` over its 16 entries from the start value the body uses (the word of -inf,
    kept as a word: nothing here evaluates it). -/
def rowMax (x : S100000x16.Idx → EReal) (r : Fin 100000) : EReal :=
  (Finset.univ : Finset (Fin 16)).fold max (Ideal.ofBits .f32 0xFF800000#32) (fun k => x (at2 r k))

/-- The sum over row `r` of the exponentials of the entries less the row's maximum. -/
def rowSumExp (x : S100000x16.Idx → EReal) (r : Fin 100000) : EReal :=
  ∑ k : Fin 16, Ideal.exp (x (at2 r k) - rowMax x r)

/-- The row-wise log-softmax over the extended reals, in the body's own order of operations. -/
def logSoftmax (x : S100000x16.Idx → EReal) : S100000x16.Idx → EReal :=
  fun i => (x i - rowMax x ⟨(i 0).val, (i 0).isLt⟩) - Ideal.log (rowSumExp x ⟨(i 0).val, (i 0).isLt⟩)

/-! ## The body's arithmetic on one block, row by row -/

section Block

open Idealize.ShloMosaic.ValueIdx Cert.LibKeepdims

/-- The maximum of row `p` of a block: the same fold of `max` from the same start word, over the block's 16 lanes. -/
def blockRowMax (x : S10000x16.Idx → EReal) (p : Fin 10000) : EReal :=
  (Finset.univ : Finset (Fin 16)).fold max (Ideal.ofBits .f32 0xFF800000#32) (fun k => x (ix2 p k))

/-- The sum over row `p` of a block of the exponentials of the entries less that row's maximum. -/
def blockRowSumExp (x : S10000x16.Idx → EReal) (p : Fin 10000) : EReal :=
  ∑ k : Fin 16, Ideal.exp (x (ix2 p k) - blockRowMax x p)

/-- Reducing the lane axis away and putting lane `k` back at row `p` names entry `(p, k)` of the block. -/
theorem lane_inserted (h : S10000x16.Reduces [1] S10000) (p : Fin 10000) (k : Fin 16) :
    h.lift (ix1 p) k = ix2 p k := by
  funext c
  apply Fin.ext
  match c with
  | ⟨0, _⟩ => rfl
  | ⟨1, _⟩ => rfl

/-- The lane reduction by `max` read at row `p` is the row's maximum: the reduction is the fold of `max` over the lane
    axis from its start word, and the folded functions agree lane by lane. The start word stays a word. -/
theorem reduce_max_row (x : FVec Ideal S10000x16 .f32) (h : S10000x16.Reduces [1] S10000) (hφ : FKind.Formats .f32)
    (hacc : (0xFF800000#32 : BitVec 32) = FKind.maximumf.neutral .f32 hφ) (p : Fin 10000) :
    multiReduction (F := Ideal) .maximumf [1] S10000 x 0xFF800000#32 h hφ hacc (ix1 p) = blockRowMax x p := by
  refine (Ideal.multiReduction_maximumf_single x 0xFF800000#32 h hφ hacc (ix1 p)).trans ?_
  unfold blockRowMax
  refine congrArg (fun f => (Finset.univ : Finset (Fin 16)).fold max (Ideal.ofBits .f32 0xFF800000#32) f) ?_
  funext k
  exact congrArg x (lane_inserted h p k)

/-- The lane reduction by addition read at row `p` is the sum of the row's 16 entries. -/
theorem reduce_add_row (y : FVec Ideal S10000x16 .f32) (h : S10000x16.Reduces [1] S10000) (hφ : FKind.Formats .f32)
    (hacc : (0x00000000#32 : BitVec 32) = FKind.add.neutral .f32 hφ) (p : Fin 10000) :
    multiReduction (F := Ideal) .add [1] S10000 y 0x00000000#32 h hφ hacc (ix1 p) = ∑ k : Fin 16, y (ix2 p k) := by
  refine (Ideal.multiReduction_add_single y 0x00000000#32 h hφ hacc (ix1 p)).trans ?_
  exact Finset.sum_congr rfl fun k _ => congrArg y (lane_inserted h p k)

/-- A row statistic kept as a column and repeated along the lanes reads, at `(p, q)`, the statistic of row `p`. -/
theorem column_repeated (v : FVec Ideal S10000 .f32) (h1 : S10000.ShapeCasts S10000x1) (h2 : S10000x1.Broadcasts S10000x16)
    (p : Fin 10000) (q : Fin 16) :
    broadcastTo S10000x16 (shapeCast S10000x1 v h1) h2 (ix2 p q) = v (ix1 p) :=
  (broadcastTo_a1_ab_apply _ h2 p q).trans (shapeCast_a_a1_apply v h1 p 0)

/-- The same with the logarithm taken on the column before it is repeated. -/
theorem column_log_repeated (v : FVec Ideal S10000 .f32) (h1 : S10000.ShapeCasts S10000x1) (h2 : S10000x1.Broadcasts S10000x16)
    (p : Fin 10000) (q : Fin 16) :
    broadcastTo S10000x16 (log (shapeCast S10000x1 v h1)) h2 (ix2 p q) = Ideal.log (v (ix1 p)) :=
  (broadcastTo_a1_ab_apply _ h2 p q).trans (congrArg Ideal.log (shapeCast_a_a1_apply v h1 p 0))

/-- THE BODY'S PAYLOAD AT AN ENTRY: with m the maximum of the entry's row and z = x - m, the stored value is
    z - log (the row's sum of exp z). The first cast is the identity; the two subtractions, exp and log are
    pointwise; the two reductions and the two repeated columns are read by the lemmas above. -/
theorem payload_entry (x : Vec Ideal S10000x16 .f32) (p : Fin 10000) (q : Fin 16) :
    k2_pay1 (F := Ideal) x (ix2 p q) = (x (ix2 p q) - blockRowMax x p) - Ideal.log (blockRowSumExp x p) := by
  unfold k2_pay1
  simp only [shapeCast_self]
  have hmax : ∀ k : Fin 16,
      broadcastTo S10000x16 (shapeCast S10000x1
        (multiReduction (F := Ideal) .maximumf [1] S10000 x 0xFF800000#32 reduces_S10000x16_S10000 (.inl rfl) rfl)
        shapeCasts_S10000_S10000x1) broadcasts_S10000x1_S10000x16 (ix2 p k) = blockRowMax x p := fun k =>
    (column_repeated _ _ _ p k).trans (reduce_max_row x _ _ _ p)
  refine (subf_apply _ _ _).trans ?_
  refine congrArg₂ (fun a b : EReal => a - b) ?_ ?_
  · exact (subf_apply _ _ _).trans (congrArg (fun z : EReal => x (ix2 p q) - z) (hmax q))
  · refine (column_log_repeated _ _ _ p q).trans (congrArg Ideal.log ?_)
    refine (reduce_add_row _ _ _ _ p).trans ?_
    unfold blockRowSumExp
    refine Finset.sum_congr rfl fun k _ => ?_
    show Ideal.exp (x (ix2 p k) - _) = _
    exact congrArg (fun z : EReal => Ideal.exp (x (ix2 p k) - z)) (hmax k)

/-- A BLOCK'S ROW IS A ROW OF THE ARRAY. If row `(j 0)` of the block `xb` is row `(i 0)` of the array `X`, lane by lane, and
    `i` sits in lane `(j 1)`, the payload of the block at `j` is the log-softmax of the array at `i`: the two folds of `max`
    fold functions that agree lane by lane (nothing is evaluated), and so do the two sums. -/
theorem payload_is_logSoftmax (X : S100000x16.Idx → EReal) (xb : Vec Ideal S10000x16 .f32) (j : S10000x16.Idx)
    (i : S100000x16.Idx)
    (hrow : ∀ k : Fin 16, xb (ix2 (⟨(j 0).val, idx2_lt0 j⟩ : Fin 10000) k) = X (at2 ⟨(i 0).val, (i 0).isLt⟩ k))
    (hlane : (i 1).val = (j 1).val) :
    k2_pay1 (F := Ideal) xb j = logSoftmax X i := by
  have hj : j = ix2 (⟨(j 0).val, idx2_lt0 j⟩ : Fin 10000) (⟨(j 1).val, idx2_lt1 j⟩ : Fin 16) := by
    funext a
    match a with
    | ⟨0, _⟩ => rfl
    | ⟨1, _⟩ => rfl
  have hi : i = at2 ⟨(i 0).val, (i 0).isLt⟩ ⟨(j 1).val, idx2_lt1 j⟩ := by
    funext a
    apply Fin.ext
    match a with
    | ⟨0, _⟩ => rfl
    | ⟨1, _⟩ => exact hlane
  have hM : blockRowMax xb ⟨(j 0).val, idx2_lt0 j⟩ = rowMax X ⟨(i 0).val, (i 0).isLt⟩ := by
    unfold blockRowMax rowMax
    exact congrArg (fun f => (Finset.univ : Finset (Fin 16)).fold max (Ideal.ofBits .f32 0xFF800000#32) f) (funext hrow)
  have hS : blockRowSumExp xb ⟨(j 0).val, idx2_lt0 j⟩ = rowSumExp X ⟨(i 0).val, (i 0).isLt⟩ := by
    unfold blockRowSumExp rowSumExp
    rw [hM]
    exact Finset.sum_congr rfl fun k _ => congrArg (fun z : EReal => Ideal.exp (z - rowMax X ⟨(i 0).val, (i 0).isLt⟩)) (hrow k)
  rw [hj, payload_entry, hM, hS, hrow]
  unfold logSoftmax
  exact congrArg (fun z : EReal => (z - rowMax X ⟨(i 0).val, (i 0).isLt⟩) - Ideal.log (rowSumExp X ⟨(i 0).val, (i 0).isLt⟩))
    (congrArg X hi.symm)

end Block

variable (V : (c : Dev nD) → (b : Ref sig .tc) → Buf (Elt Ideal) ((c : Thread nD τ).loc b))

/-! ## From the blocks to the array -/

theorem origin_zero : (![0, 0] : Fin 2 → Nat) = fun _ => 0 := funext fun a => by fin_cases a <;> rfl

/-- The printed index maps, decided over the grid: at point `t` both windows sit at block `t` of the row axis and block 0
    of the lane axis. -/
theorem block_of_point : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row `p` of the input block at point `t` is row `10000 t + p` of the input array, lane by lane: a block's coordinate in
    the array is its block index times the block's size plus the coordinate inside the block. -/
theorem input_block_row (c : Dev nD) (t : Fin cfg2.N) (p : Fin 10000) (k : Fin 16) (r : Fin 100000)
    (hr : r.val = 10000 * t.val + p.val) :
    (iblk2 (F := Ideal) V c 0 t : Vec Ideal S10000x16 .f32) (ValueIdx.ix2 p k)
      = (V c main_v95 : S100000x16.Idx → EReal) (at2 r k) := by
  obtain ⟨e0, e1, -, -⟩ := block_of_point t
  show (V c main_v95 : S100000x16.Idx → EReal) (((cfg2.win 0).blk t).view.emb (ValueIdx.ix2 p k)) = _
  refine congrArg (V c main_v95 : S100000x16.Idx → EReal) ?_
  funext a
  apply Fin.ext
  match a with
  | ⟨0, _⟩ => show win2_0.index t (0 : Fin 2) * 10000 + 1 * p.val = r.val; omega
  | ⟨1, _⟩ => show win2_0.index t (1 : Fin 2) * 16 + 1 * k.val = k.val; omega

/-- WHAT POINT `t` WRITES BACK is block `t` of the log-softmax of the input array as the region finds it. -/
theorem written_block (c : Dev nD) (t : Fin cfg2.N) :
    (dat2 (F := Ideal) V c).flushed 1 t
      = ((cfg2.win 1).blk t).view.read (Elt Ideal) (logSoftmax (V c main_v95)) := by
  show (cfg2.win 1).cut (grid2.coords t) ((dat2 (F := Ideal) V c).after 1 t) = _
  rw [after2_1]
  unfold out2_1
  rw [View.canon_unit_zero origin_zero]
  simp only [View.ld_unit_zero (S := S10000x16) origin_zero]
  obtain ⟨-, -, e2, e3⟩ := block_of_point t
  funext j
  show k2_pay1 (F := Ideal) (iblk2 V c 0 t) j = logSoftmax (V c main_v95) (((cfg2.win 1).blk t).view.emb j)
  have hj0 : (j 0).val < 10000 := (j 0).isLt
  have hj1 : (j 1).val < 16 := (j 1).isLt
  refine payload_is_logSoftmax (V c main_v95) (iblk2 V c 0 t) j _ (fun k => input_block_row V c t _ k _ ?_) ?_
  · show win2_1.index t (0 : Fin 2) * 10000 + 1 * (j 0).val = 10000 * t.val + (j 0).val; omega
  · show win2_1.index t (1 : Fin 2) * 16 + 1 * (j 1).val = (j 1).val; omega

/-- An index of the array is in point `t`'s block iff each coordinate is in the block's range on its axis. -/
theorem mem_block (t : Fin cfg2.N) (i : S100000x16.Idx) :
    i ∈ ((cfg2.win 1).blk t).view.set ↔ ∀ a : Fin 2, win2_1.index t a * S10000x16.size a ≤ (i a).val
      ∧ (i a).val < win2_1.index t a * S10000x16.size a + S10000x16.size a := by
  show i ∈ ((View.whole main_v96).slice (win2_1.rect t)).set ↔ _
  rw [View.set_slice_whole, Rect.mem_set_unit]
  exact Iff.rfl

/-- THE BLOCKS COVER THE ARRAY: row `r` lies in the block of point `r / 10000`, and every point writes back. -/
theorem blocks_cover (i : S100000x16.Idx) :
    ∃ t : Fin cfg2.N, (cfg2.win 1).flush t = true ∧ i ∈ ((cfg2.win 1).blk t).view.set := by
  have hi0 : (i 0).val < 100000 := (i 0).isLt
  have hi1 : (i 1).val < 16 := (i 1).isLt
  have hN : cfg2.N = 10 := N_2
  refine ⟨⟨(i 0).val / 10000, by rw [hN]; omega⟩, flush2_1 _, ?_⟩
  rw [mem_block]
  obtain ⟨-, -, e2, e3⟩ := block_of_point ⟨(i 0).val / 10000, by rw [hN]; omega⟩
  intro a
  match a with
  | ⟨0, _⟩ =>
    show win2_1.index _ (0 : Fin 2) * 10000 ≤ (i 0).val ∧ (i 0).val < win2_1.index _ (0 : Fin 2) * 10000 + 10000
    rw [e2]; show (i 0).val / 10000 * 10000 ≤ (i 0).val ∧ (i 0).val < (i 0).val / 10000 * 10000 + 10000; omega
  | ⟨1, _⟩ =>
    show win2_1.index _ (1 : Fin 2) * 16 ≤ (i 1).val ∧ (i 1).val < win2_1.index _ (1 : Fin 2) * 16 + 16
    rw [e3]; omega

/-- After region 2 the output array is the row-wise log-softmax of the input array as the region finds it. -/
theorem final (c : Dev nD) :
    (dat2 (F := Ideal) V c).arrAt 1 cfg2.N = logSoftmax (V c main_v95) := by
  exact (dat2 (F := Ideal) V c).arrAt_eq_of_cover 1 (logSoftmax (V c main_v95)) (fun t _ => written_block V c t) blocks_cover

end Cert.KernelIdeal.Region2

end
-- ==== Proof.HostK.lean ====
/-
  The kernel's host stretches, read as values.

  Between its three pallas_calls the kernel's @main runs the very host operations the reference runs (the
  self-loop edges and weights; per layer the weighted in-degree, its guarded inverse square root, the edge
  normalisation, the gather of source rows, their scaling, the scatter-add into destination rows, the bias, and
  after the first layer the rectifier). Each stretch is a fold of the device's buffer contents through a list of
  operations, so the contents of one buffer after a stretch is a composed term of the contents the stretch starts
  from. The lemmas below read that term, for ANY starting contents `W`, at the buffers the next region reads, as
  the reference's own stage functions (its value after each operation as a function of @main's arguments) — given
  that `W` holds those stages at the buffers the stretch reads. No arithmetic happens here: the two sides are the
  same operations applied to the same operands.
-/
import proofs.«123366_j53472342835547_1_alg».proof.Proof.Gen.KernelIdeal.Launch
import proofs.«123366_j53472342835547_1_alg».proof.Proof.RefRead
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.ShloMosaic.StableHlo
open Cert.ReferenceIdeal.ReadP

variable {F : FTy → Type} [FloatOps F]
variable (W : Valuation τ sig (Elt F))

/-- The stretch between region 0 and region 1 (the first layer's aggregation, bias and rectifier). -/
abbrev afterB : Valuation τ sig (Elt F) :=
  after hostOps1_5 (after hostOps1_4 (after hostOps1_3 (after hostOps1_2 (after hostOps1_1 (after hostOps1 W)))))
/-- The stretch between region 1 and region 2 (the second layer's aggregation and bias). -/
abbrev afterC : Valuation τ sig (Elt F) :=
  after hostOps2_4 (after hostOps2_3 (after hostOps2_2 (after hostOps2_1 (after hostOps2 W))))

/-! ## Before region 0: the edge lists with self-loops, and the edge weights with ones appended -/

theorem pre_v3 : after hostOps0 W (Proc.devRef .tc main_v3) = val_main_v3 (F := F) (W (Proc.devRef .tc main_arg1)) := by
  after_results_simp <;> rfl
theorem pre_v6 : after hostOps0 W (Proc.devRef .tc main_v6) = val_main_v6 (F := F) (W (Proc.devRef .tc main_arg1)) := by
  after_results_simp <;> rfl
theorem pre_v8 : after hostOps0 W (Proc.devRef .tc main_v8) = val_main_v8 (F := F) (W (Proc.devRef .tc main_arg2)) := by
  after_results_simp <;> rfl
/-- The stretch writes none of @main's arguments. -/
theorem pre_arg0 : after hostOps0 W (Proc.devRef .tc main_arg0) = W (Proc.devRef .tc main_arg0) := by after_results_simp
theorem pre_arg3 : after hostOps0 W (Proc.devRef .tc main_arg3) = W (Proc.devRef .tc main_arg3) := by after_results_simp
theorem pre_arg4 : after hostOps0 W (Proc.devRef .tc main_arg4) = W (Proc.devRef .tc main_arg4) := by after_results_simp
theorem pre_arg5 : after hostOps0 W (Proc.devRef .tc main_arg5) = W (Proc.devRef .tc main_arg5) := by after_results_simp
theorem pre_arg6 : after hostOps0 W (Proc.devRef .tc main_arg6) = W (Proc.devRef .tc main_arg6) := by after_results_simp

/-! ## Between region 0 and region 1: the first layer's host part -/

/-- The hidden array the second product reads: given the first product, the edge lists, the weights and the bias at the
    buffers the stretch reads, the rectified layer output is the reference's stage. -/
theorem layer1 (x0 : (⟨S100000x512, .f32⟩ : BufTy).Contents (Elt F)) (x1 : (⟨S2x3200000, .i32⟩ : BufTy).Contents (Elt F))
    (x2 : (⟨S3200000, .f32⟩ : BufTy).Contents (Elt F)) (x3 : (⟨S512x64, .f32⟩ : BufTy).Contents (Elt F)) (x4 : (⟨S64, .f32⟩ : BufTy).Contents (Elt F))
    (h9 : W (Proc.devRef .tc main_v9) = val_main_v9 (F := F) x0 x3)
    (h3 : W (Proc.devRef .tc main_v3) = val_main_v3 (F := F) x1)
    (h6 : W (Proc.devRef .tc main_v6) = val_main_v6 (F := F) x1)
    (h8 : W (Proc.devRef .tc main_v8) = val_main_v8 (F := F) x2)
    (h4 : W (Proc.devRef .tc main_arg4) = x4) :
    afterB W (Proc.devRef .tc main_v52) = val_main_v52 (F := F) x0 x1 x2 x3 x4 := by
  after_results_simp
  rw [h9, h3, h6, h8, h4]
  rfl

/-- The stretch leaves the edge lists, the weights and the later arguments as they were. -/
theorem layer1_v3 : afterB W (Proc.devRef .tc main_v3) = W (Proc.devRef .tc main_v3) := by after_results_simp
theorem layer1_v6 : afterB W (Proc.devRef .tc main_v6) = W (Proc.devRef .tc main_v6) := by after_results_simp
theorem layer1_v8 : afterB W (Proc.devRef .tc main_v8) = W (Proc.devRef .tc main_v8) := by after_results_simp
theorem layer1_arg5 : afterB W (Proc.devRef .tc main_arg5) = W (Proc.devRef .tc main_arg5) := by after_results_simp
theorem layer1_arg6 : afterB W (Proc.devRef .tc main_arg6) = W (Proc.devRef .tc main_arg6) := by after_results_simp

/-! ## Between region 1 and region 2: the second layer's host part -/

/-- The logits the log-softmax reads: given the second product, the edge lists, the weights and the bias at the buffers the
    stretch reads, the layer output is the reference's stage. -/
theorem layer2 (x0 : (⟨S100000x512, .f32⟩ : BufTy).Contents (Elt F)) (x1 : (⟨S2x3200000, .i32⟩ : BufTy).Contents (Elt F))
    (x2 : (⟨S3200000, .f32⟩ : BufTy).Contents (Elt F)) (x3 : (⟨S512x64, .f32⟩ : BufTy).Contents (Elt F)) (x4 : (⟨S64, .f32⟩ : BufTy).Contents (Elt F))
    (x5 : (⟨S64x16, .f32⟩ : BufTy).Contents (Elt F)) (x6 : (⟨S16, .f32⟩ : BufTy).Contents (Elt F))
    (h53 : W (Proc.devRef .tc main_v53) = val_main_v53 (F := F) x0 x1 x2 x3 x4 x5)
    (h3 : W (Proc.devRef .tc main_v3) = val_main_v3 (F := F) x1)
    (h6 : W (Proc.devRef .tc main_v6) = val_main_v6 (F := F) x1)
    (h8 : W (Proc.devRef .tc main_v8) = val_main_v8 (F := F) x2)
    (h6' : W (Proc.devRef .tc main_arg6) = x6) :
    afterC W (Proc.devRef .tc main_v95) = val_main_v95 (F := F) x0 x1 x2 x3 x4 x5 x6 := by
  after_results_simp
  rw [h53, h3, h6, h8, h6']
  rfl

end Cert.KernelIdeal.HostK

end
-- ==== Proof.Bridge.lean ====
/-
  The kernel's result as one function of @main's arguments.

  The run of the kernel's @main ends with the result array at the contents the last segment boundary names. Walking
  the boundaries from the launch: the first host stretch builds the edge lists and weights; region 0 leaves the
  product x · W1 (a sum over the 512 columns, which is what the reference's first dot_general is at an entry); the
  next stretch turns it into the rectified first layer, by the same host operations as the reference; region 1
  leaves the product with W2 (a sum over 64); the next stretch gives the logits; region 2 leaves their row-wise
  log-softmax. At every boundary the buffer the next segment reads holds the reference's own stage of the arguments,
  so the result is the log-softmax of the reference's logits.
-/
import proofs.«123366_j53472342835547_1_alg».proof.Proof.Gen.KernelIdeal.Frame
import proofs.«123366_j53472342835547_1_alg».proof.Proof.Region0
import proofs.«123366_j53472342835547_1_alg».proof.Proof.Region1
import proofs.«123366_j53472342835547_1_alg».proof.Proof.Region2
import proofs.«123366_j53472342835547_1_alg».proof.Proof.HostK
import proofs.«123366_j53472342835547_1_alg».proof.Proof.RefRead

set_option maxRecDepth 16384

noncomputable section

namespace Cert.KernelIdeal.Bridge

open Cert.KernelIdeal Cert.KernelIdeal.Gen Idealize.ShloMosaic Idealize.ShloMosaic.TcCoe Idealize.ShloMosaic.StableHlo Idealize.SL.Sem
open Cert.ReferenceIdeal.ReadP

/-! ## The two products are the reference's dot_generals, entry by entry -/

theorem prod0_eq (x0 : (⟨S100000x512, .f32⟩ : BufTy).Contents (Elt Ideal)) (x3 : (⟨S512x64, .f32⟩ : BufTy).Contents (Elt Ideal)) :
    Region0.prod x0 x3 = val_main_v9 (F := Ideal) x0 x3 := by
  funext i
  rw [val_main_v9_apply]
  unfold Region0.prod
  refine Finset.sum_congr rfl fun k _ => ?_
  refine congrArg₂ (fun a b : EReal => a * b) (congrArg x0 ?_) (congrArg x3 ?_)
  · funext a; match a with
    | ⟨0, _⟩ => rfl
    | ⟨1, _⟩ => rfl
  · funext a; match a with
    | ⟨0, _⟩ => rfl
    | ⟨1, _⟩ => rfl

theorem prod1_eq (x0 : (⟨S100000x512, .f32⟩ : BufTy).Contents (Elt Ideal)) (x1 : (⟨S2x3200000, .i32⟩ : BufTy).Contents (Elt Ideal))
    (x2 : (⟨S3200000, .f32⟩ : BufTy).Contents (Elt Ideal)) (x3 : (⟨S512x64, .f32⟩ : BufTy).Contents (Elt Ideal)) (x4 : (⟨S64, .f32⟩ : BufTy).Contents (Elt Ideal))
    (x5 : (⟨S64x16, .f32⟩ : BufTy).Contents (Elt Ideal)) :
    Region1.prod (val_main_v52 (F := Ideal) x0 x1 x2 x3 x4) x5 = val_main_v53 (F := Ideal) x0 x1 x2 x3 x4 x5 := by
  funext i
  rw [val_main_v53_apply]
  unfold Region1.prod
  refine Finset.sum_congr rfl fun k _ => ?_
  refine congrArg₂ (fun a b : EReal => a * b) (congrArg (val_main_v52 (F := Ideal) x0 x1 x2 x3 x4) ?_) (congrArg x5 ?_)
  · funext a; match a with
    | ⟨0, _⟩ => rfl
    | ⟨1, _⟩ => rfl
  · funext a; match a with
    | ⟨0, _⟩ => rfl
    | ⟨1, _⟩ => rfl

/-! ## The boundaries, from the launch to the return -/

variable (m : (ℓ : Loc nD τ sig) → Buf (Elt Ideal) ℓ) (ρ : Dev nD → PrngReg) (c : Dev nD)

/-- The result array after the kernel's run: the row-wise log-softmax of the reference's logits stage of the arguments. -/
theorem kernel_value :
    W15 m ρ c (Proc.devRef .tc main_v96)
      = Region2.logSoftmax (val_main_v95 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) := by
  -- at region 0's entry: the arguments as launched, the edge lists and weights at their stages
  have a0 : W1 m ρ c (Proc.devRef .tc main_arg0) = m ((c : Thread nD τ).loc main_arg0) := HostK.pre_arg0 (W0 m ρ c)
  have a3 : W1 m ρ c (Proc.devRef .tc main_arg3) = m ((c : Thread nD τ).loc main_arg3) := HostK.pre_arg3 (W0 m ρ c)
  have a4 : W1 m ρ c (Proc.devRef .tc main_arg4) = m ((c : Thread nD τ).loc main_arg4) := HostK.pre_arg4 (W0 m ρ c)
  have a5 : W1 m ρ c (Proc.devRef .tc main_arg5) = m ((c : Thread nD τ).loc main_arg5) := HostK.pre_arg5 (W0 m ρ c)
  have a6 : W1 m ρ c (Proc.devRef .tc main_arg6) = m ((c : Thread nD τ).loc main_arg6) := HostK.pre_arg6 (W0 m ρ c)
  have s3 : W1 m ρ c (Proc.devRef .tc main_v3) = val_main_v3 (F := Ideal) (m ((c : Thread nD τ).loc main_arg1)) := HostK.pre_v3 (W0 m ρ c)
  have s6 : W1 m ρ c (Proc.devRef .tc main_v6) = val_main_v6 (F := Ideal) (m ((c : Thread nD τ).loc main_arg1)) := HostK.pre_v6 (W0 m ρ c)
  have s8 : W1 m ρ c (Proc.devRef .tc main_v8) = val_main_v8 (F := Ideal) (m ((c : Thread nD τ).loc main_arg2)) := HostK.pre_v8 (W0 m ρ c)
  -- region 0: the first product; every other buffer as entered
  have p9 : W2 m ρ c (Proc.devRef .tc main_v9)
      = val_main_v9 (F := Ideal) (m ((c : Thread nD τ).loc main_arg0)) (m ((c : Thread nD τ).loc main_arg3)) := by
    refine (W2_arr m ρ c 2).trans ((Region0.final (V1 m ρ) c).trans ?_)
    show Region0.prod (W1 m ρ c (Proc.devRef .tc main_arg0)) (W1 m ρ c (Proc.devRef .tc main_arg3)) = _
    rw [a0, a3]
    exact prod0_eq _ _
  have k3 : W2 m ρ c (Proc.devRef .tc main_v3) = W1 m ρ c (Proc.devRef .tc main_v3) := W2_of_ne m ρ c main_v3 (by decide)
  have k6 : W2 m ρ c (Proc.devRef .tc main_v6) = W1 m ρ c (Proc.devRef .tc main_v6) := W2_of_ne m ρ c main_v6 (by decide)
  have k8 : W2 m ρ c (Proc.devRef .tc main_v8) = W1 m ρ c (Proc.devRef .tc main_v8) := W2_of_ne m ρ c main_v8 (by decide)
  have k4 : W2 m ρ c (Proc.devRef .tc main_arg4) = W1 m ρ c (Proc.devRef .tc main_arg4) := W2_of_ne m ρ c main_arg4 (by decide)
  have k5 : W2 m ρ c (Proc.devRef .tc main_arg5) = W1 m ρ c (Proc.devRef .tc main_arg5) := W2_of_ne m ρ c main_arg5 (by decide)
  have k6' : W2 m ρ c (Proc.devRef .tc main_arg6) = W1 m ρ c (Proc.devRef .tc main_arg6) := W2_of_ne m ρ c main_arg6 (by decide)
  -- the first layer's host part
  have h52 : W8 m ρ c (Proc.devRef .tc main_v52)
      = val_main_v52 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) :=
    HostK.layer1 (W2 m ρ c) _ _ _ _ _ p9 (k3.trans s3) (k6.trans s6) (k8.trans s8) (k4.trans a4)
  have l3 : W8 m ρ c (Proc.devRef .tc main_v3) = W2 m ρ c (Proc.devRef .tc main_v3) := HostK.layer1_v3 (W2 m ρ c)
  have l6 : W8 m ρ c (Proc.devRef .tc main_v6) = W2 m ρ c (Proc.devRef .tc main_v6) := HostK.layer1_v6 (W2 m ρ c)
  have l8 : W8 m ρ c (Proc.devRef .tc main_v8) = W2 m ρ c (Proc.devRef .tc main_v8) := HostK.layer1_v8 (W2 m ρ c)
  have l5 : W8 m ρ c (Proc.devRef .tc main_arg5) = W2 m ρ c (Proc.devRef .tc main_arg5) := HostK.layer1_arg5 (W2 m ρ c)
  have l6' : W8 m ρ c (Proc.devRef .tc main_arg6) = W2 m ρ c (Proc.devRef .tc main_arg6) := HostK.layer1_arg6 (W2 m ρ c)
  -- region 1: the second product; every other buffer as entered
  have p53 : W9 m ρ c (Proc.devRef .tc main_v53)
      = val_main_v53 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
    refine (W9_arr m ρ c 2).trans ((Region1.final (V8 m ρ) c).trans ?_)
    show Region1.prod (W8 m ρ c (Proc.devRef .tc main_v52)) (W8 m ρ c (Proc.devRef .tc main_arg5)) = _
    rw [h52, l5, k5, a5]
    exact prod1_eq _ _ _ _ _ _
  have n3 : W9 m ρ c (Proc.devRef .tc main_v3) = W8 m ρ c (Proc.devRef .tc main_v3) := W9_of_ne m ρ c main_v3 (by decide)
  have n6 : W9 m ρ c (Proc.devRef .tc main_v6) = W8 m ρ c (Proc.devRef .tc main_v6) := W9_of_ne m ρ c main_v6 (by decide)
  have n8 : W9 m ρ c (Proc.devRef .tc main_v8) = W8 m ρ c (Proc.devRef .tc main_v8) := W9_of_ne m ρ c main_v8 (by decide)
  have n6' : W9 m ρ c (Proc.devRef .tc main_arg6) = W8 m ρ c (Proc.devRef .tc main_arg6) := W9_of_ne m ρ c main_arg6 (by decide)
  -- the second layer's host part
  have h95 : W14 m ρ c (Proc.devRef .tc main_v95)
      = val_main_v95 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) :=
    HostK.layer2 (W9 m ρ c) _ _ _ _ _ _ _ p53 (n3.trans (l3.trans (k3.trans s3))) (n6.trans (l6.trans (k6.trans s6)))
      (n8.trans (l8.trans (k8.trans s8))) (n6'.trans (l6'.trans (k6'.trans a6)))
  -- region 2: the log-softmax of the logits
  refine (W15_arr m ρ c 1).trans ((Region2.final (V14 m ρ) c).trans ?_)
  show Region2.logSoftmax (W14 m ρ c (Proc.devRef .tc main_v95)) = _
  rw [h95]

end Cert.KernelIdeal.Bridge

end
-- ==== Proof.RefValue.lean ====
/-
  The reference's run, read as values stretch by stretch.

  The reference's @main is one line of 146 host operations. Its run ends with every buffer at the fold of the
  launch contents through that line. The line is cut where the kernel's @main has its three pallas_calls: the
  ten operations that build the edge lists and weights; the first product; the first layer's host part; the second
  product; the second layer's host part; and the fifteen operations of the row-wise log-softmax, themselves cut in
  five short steps. The contents of the one buffer the next piece reads is then, for ANY contents a piece starts
  from, a named function of what the piece reads: up to the logits these are the reference's own stage functions of
  @main's arguments; for the log-softmax they are four small functions of the logits array, spelt here with the very
  operations the line applies. The two sides of every equation are the same operations applied to the same operands,
  and no arithmetic happens here.
-/
import proofs.«123366_j53472342835547_1_alg».proof.Proof.RefRead
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.ShloMosaic.StableHlo
open Cert.ReferenceIdeal.ValueP Cert.ReferenceIdeal.ReadP

variable {F : FTy → Type} [FloatOps F]
variable (W : Valuation τ sig (Elt F))

/-! ## The line, cut -/

/-- The edge lists with self-loops and the edge weights with ones appended (operations 1 to 10). -/
abbrev opsPre : List (HloOp τ sig (Elt F)) := (ops (F := F)).take 10
/-- The first product (operation 11). -/
abbrev opsDot1 : List (HloOp τ sig (Elt F)) := ((ops (F := F)).drop 10).take 1
/-- The first layer's aggregation, bias and rectifier (operations 12 to 72). -/
abbrev opsL1 : List (HloOp τ sig (Elt F)) := ((ops (F := F)).drop 11).take 61
/-- The second product (operation 73). -/
abbrev opsDot2 : List (HloOp τ sig (Elt F)) := ((ops (F := F)).drop 72).take 1
/-- The second layer's aggregation and bias (operations 74 to 131). -/
abbrev opsL2 : List (HloOp τ sig (Elt F)) := ((ops (F := F)).drop 73).take 58
/-- The row-wise log-softmax (operations 132 to 146), in five steps: the reduce of max over the lanes (132, 133); its join
    with a splat of -inf (134 to 136); the entries less the row maximum (137 to 139); the row sum of their exponentials
    (140 to 142); the entries less its logarithm (143 to 146). -/
abbrev opsMax : List (HloOp τ sig (Elt F)) := ((ops (F := F)).drop 131).take 2
abbrev opsJoin : List (HloOp τ sig (Elt F)) := ((ops (F := F)).drop 133).take 3
abbrev opsShift : List (HloOp τ sig (Elt F)) := ((ops (F := F)).drop 136).take 3
abbrev opsSum : List (HloOp τ sig (Elt F)) := ((ops (F := F)).drop 139).take 3
abbrev opsLog : List (HloOp τ sig (Elt F)) := (ops (F := F)).drop 142

theorem ops_cut : ops (F := F) = opsPre ++ (opsDot1 ++ (opsL1 ++ (opsDot2 ++ (opsL2 ++ (opsMax ++ (opsJoin ++ (opsShift ++ (opsSum ++ opsLog)))))))) := by
  simp only [opsPre, opsDot1, opsL1, opsDot2, opsL2, opsMax, opsJoin, opsShift, opsSum, opsLog, ops, List.take_succ_cons, List.take_zero, List.drop_succ_cons, List.drop_zero]
  rfl

/-- The fold through the whole line is the fold through its pieces in order. -/
theorem after_ops : after (ops (F := F)) W
    = after opsLog (after opsSum (after opsShift (after opsJoin (after opsMax (after opsL2 (after opsDot2 (after opsL1 (after opsDot1 (after opsPre W))))))))) := by
  conv_lhs => rw [ops_cut]
  simp only [StableHlo.after_append]

/-! ## The pieces, each read at the buffer the next one reads -/

theorem pre_v3 : after opsPre W (Proc.devRef .tc main_v3) = val_main_v3 (F := F) (W (Proc.devRef .tc main_arg1)) := by
  simp only [opsPre, opsDot1, opsL1, opsDot2, opsL2, opsMax, opsJoin, opsShift, opsSum, opsLog, ops, List.take_succ_cons, List.take_zero, List.drop_succ_cons, List.drop_zero]
  after_results_simp <;> rfl
theorem pre_v6 : after opsPre W (Proc.devRef .tc main_v6) = val_main_v6 (F := F) (W (Proc.devRef .tc main_arg1)) := by
  simp only [opsPre, opsDot1, opsL1, opsDot2, opsL2, opsMax, opsJoin, opsShift, opsSum, opsLog, ops, List.take_succ_cons, List.take_zero, List.drop_succ_cons, List.drop_zero]
  after_results_simp <;> rfl
theorem pre_v8 : after opsPre W (Proc.devRef .tc main_v8) = val_main_v8 (F := F) (W (Proc.devRef .tc main_arg2)) := by
  simp only [opsPre, opsDot1, opsL1, opsDot2, opsL2, opsMax, opsJoin, opsShift, opsSum, opsLog, ops, List.take_succ_cons, List.take_zero, List.drop_succ_cons, List.drop_zero]
  after_results_simp <;> rfl
/-- The first piece writes none of @main's arguments. -/
theorem pre_arg (b : Ref sig .tc) (hb : b = main_arg0 ∨ b = main_arg3 ∨ b = main_arg4 ∨ b = main_arg5 ∨ b = main_arg6) :
    after opsPre W (Proc.devRef .tc b) = W (Proc.devRef .tc b) := by
  simp only [opsPre, opsDot1, opsL1, opsDot2, opsL2, opsMax, opsJoin, opsShift, opsSum, opsLog, ops, List.take_succ_cons, List.take_zero, List.drop_succ_cons, List.drop_zero]
  rcases hb with rfl | rfl | rfl | rfl | rfl <;> after_results_simp

/-- The first product, and what it leaves alone. -/
theorem dot1_v9 : after opsDot1 W (Proc.devRef .tc main_v9) = val_main_v9 (F := F) (W (Proc.devRef .tc main_arg0)) (W (Proc.devRef .tc main_arg3)) := by
  simp only [opsPre, opsDot1, opsL1, opsDot2, opsL2, opsMax, opsJoin, opsShift, opsSum, opsLog, ops, List.take_succ_cons, List.take_zero, List.drop_succ_cons, List.drop_zero]
  after_results_simp <;> rfl
theorem dot1_keep (b : Ref sig .tc) (hb : b = main_v3 ∨ b = main_v6 ∨ b = main_v8 ∨ b = main_arg4 ∨ b = main_arg5 ∨ b = main_arg6) :
    after opsDot1 W (Proc.devRef .tc b) = W (Proc.devRef .tc b) := by
  simp only [opsPre, opsDot1, opsL1, opsDot2, opsL2, opsMax, opsJoin, opsShift, opsSum, opsLog, ops, List.take_succ_cons, List.take_zero, List.drop_succ_cons, List.drop_zero]
  rcases hb with rfl | rfl | rfl | rfl | rfl | rfl <;> after_results_simp

/-- The first layer's host part. -/
theorem layer1 (x0 : (⟨S100000x512, .f32⟩ : BufTy).Contents (Elt F)) (x1 : (⟨S2x3200000, .i32⟩ : BufTy).Contents (Elt F))
    (x2 : (⟨S3200000, .f32⟩ : BufTy).Contents (Elt F)) (x3 : (⟨S512x64, .f32⟩ : BufTy).Contents (Elt F)) (x4 : (⟨S64, .f32⟩ : BufTy).Contents (Elt F))
    (h9 : W (Proc.devRef .tc main_v9) = val_main_v9 (F := F) x0 x3)
    (h3 : W (Proc.devRef .tc main_v3) = val_main_v3 (F := F) x1)
    (h6 : W (Proc.devRef .tc main_v6) = val_main_v6 (F := F) x1)
    (h8 : W (Proc.devRef .tc main_v8) = val_main_v8 (F := F) x2)
    (h4 : W (Proc.devRef .tc main_arg4) = x4) :
    after opsL1 W (Proc.devRef .tc main_v52) = val_main_v52 (F := F) x0 x1 x2 x3 x4 := by
  simp only [opsPre, opsDot1, opsL1, opsDot2, opsL2, opsMax, opsJoin, opsShift, opsSum, opsLog, ops, List.take_succ_cons, List.take_zero, List.drop_succ_cons, List.drop_zero]
  after_results_simp
  rw [h9, h3, h6, h8, h4]
  rfl
theorem layer1_keep (b : Ref sig .tc) (hb : b = main_v3 ∨ b = main_v6 ∨ b = main_v8 ∨ b = main_arg5 ∨ b = main_arg6) :
    after opsL1 W (Proc.devRef .tc b) = W (Proc.devRef .tc b) := by
  simp only [opsPre, opsDot1, opsL1, opsDot2, opsL2, opsMax, opsJoin, opsShift, opsSum, opsLog, ops, List.take_succ_cons, List.take_zero, List.drop_succ_cons, List.drop_zero]
  rcases hb with rfl | rfl | rfl | rfl | rfl <;> after_results_simp

/-- The second product, and what it leaves alone. -/
theorem dot2_v53 (x0 : (⟨S100000x512, .f32⟩ : BufTy).Contents (Elt F)) (x1 : (⟨S2x3200000, .i32⟩ : BufTy).Contents (Elt F))
    (x2 : (⟨S3200000, .f32⟩ : BufTy).Contents (Elt F)) (x3 : (⟨S512x64, .f32⟩ : BufTy).Contents (Elt F)) (x4 : (⟨S64, .f32⟩ : BufTy).Contents (Elt F))
    (h52 : W (Proc.devRef .tc main_v52) = val_main_v52 (F := F) x0 x1 x2 x3 x4) :
    after opsDot2 W (Proc.devRef .tc main_v53) = val_main_v53 (F := F) x0 x1 x2 x3 x4 (W (Proc.devRef .tc main_arg5)) := by
  simp only [opsPre, opsDot1, opsL1, opsDot2, opsL2, opsMax, opsJoin, opsShift, opsSum, opsLog, ops, List.take_succ_cons, List.take_zero, List.drop_succ_cons, List.drop_zero]
  after_results_simp
  rw [h52]
  rfl
theorem dot2_keep (b : Ref sig .tc) (hb : b = main_v3 ∨ b = main_v6 ∨ b = main_v8 ∨ b = main_arg6) :
    after opsDot2 W (Proc.devRef .tc b) = W (Proc.devRef .tc b) := by
  simp only [opsPre, opsDot1, opsL1, opsDot2, opsL2, opsMax, opsJoin, opsShift, opsSum, opsLog, ops, List.take_succ_cons, List.take_zero, List.drop_succ_cons, List.drop_zero]
  rcases hb with rfl | rfl | rfl | rfl <;> after_results_simp

/-- The second layer's host part. -/
theorem layer2 (x0 : (⟨S100000x512, .f32⟩ : BufTy).Contents (Elt F)) (x1 : (⟨S2x3200000, .i32⟩ : BufTy).Contents (Elt F))
    (x2 : (⟨S3200000, .f32⟩ : BufTy).Contents (Elt F)) (x3 : (⟨S512x64, .f32⟩ : BufTy).Contents (Elt F)) (x4 : (⟨S64, .f32⟩ : BufTy).Contents (Elt F))
    (x5 : (⟨S64x16, .f32⟩ : BufTy).Contents (Elt F)) (x6 : (⟨S16, .f32⟩ : BufTy).Contents (Elt F))
    (h53 : W (Proc.devRef .tc main_v53) = val_main_v53 (F := F) x0 x1 x2 x3 x4 x5)
    (h3 : W (Proc.devRef .tc main_v3) = val_main_v3 (F := F) x1)
    (h6 : W (Proc.devRef .tc main_v6) = val_main_v6 (F := F) x1)
    (h8 : W (Proc.devRef .tc main_v8) = val_main_v8 (F := F) x2)
    (h6' : W (Proc.devRef .tc main_arg6) = x6) :
    after opsL2 W (Proc.devRef .tc main_v95) = val_main_v95 (F := F) x0 x1 x2 x3 x4 x5 x6 := by
  simp only [opsPre, opsDot1, opsL1, opsDot2, opsL2, opsMax, opsJoin, opsShift, opsSum, opsLog, ops, List.take_succ_cons, List.take_zero, List.drop_succ_cons, List.drop_zero]
  after_results_simp
  rw [h53, h3, h6, h8, h6']
  rfl

/-! ### The log-softmax, as pure functions of the logits

jax's log_softmax prints as fifteen operations of a module-local function. They are named here as four functions of the
logits array, spelt with the very operations the line applies (so that reading the fold against them opens nothing): the
row maximum, the entries less it, the row sum of the exponentials, and the entries less its logarithm. -/

/-- The row maximum: a reduce of max over the lanes from the splat of -inf, joined once more with a splat of -inf. -/
def lsmMax (y : (⟨S100000x16, .f32⟩ : BufTy).Contents (Elt F)) : (⟨S100000, .f32⟩ : BufTy).Contents (Elt F) :=
  maximumf (F := F) (s := S100000) (φ := .f32) (broadcastInDim S100000 ![] bcast_S_S100000 (constant (F := F) S_ .f32 0xFF800000#32))
    (Host.reduce FloatOps.maximumf y (constant (F := F) S_ .f32 0xFF800000#32) reducesTo_S100000x16_S100000_d1 h_S_)

/-- A row statistic kept as a column and repeated along the 16 lanes. -/
def lsmRepeat (v : (⟨S100000x1, .f32⟩ : BufTy).Contents (Elt F)) : (⟨S100000x16, .f32⟩ : BufTy).Contents (Elt F) :=
  broadcastInDim S100000x16 ![0, 1] bcast_S100000x1_S100000x16_0_1 v
/-- A row statistic as a column. -/
def lsmColumn (v : (⟨S100000, .f32⟩ : BufTy).Contents (Elt F)) : (⟨S100000x1, .f32⟩ : BufTy).Contents (Elt F) :=
  broadcastInDim S100000x1 ![0] bcast_S100000_S100000x1_0 v

/-- The entries less their row's maximum. -/
def lsmShift (y : (⟨S100000x16, .f32⟩ : BufTy).Contents (Elt F)) : (⟨S100000x16, .f32⟩ : BufTy).Contents (Elt F) :=
  subf (F := F) (s := S100000x16) (φ := .f32) y (lsmRepeat (lsmColumn (lsmMax y)))

/-- The row sum of the exponentials of the shifted entries: a reduce of + over the lanes from the splat of 0. -/
def lsmSum (z : (⟨S100000x16, .f32⟩ : BufTy).Contents (Elt F)) : (⟨S100000, .f32⟩ : BufTy).Contents (Elt F) :=
  Host.reduceAdd (Host.exp z) (constant (F := F) S_ .f32 0x00000000#32) reducesTo_S100000x16_S100000_d1 h_S_

/-- The result: the shifted entries less the logarithm of their row's sum. -/
def lsmOut (y : (⟨S100000x16, .f32⟩ : BufTy).Contents (Elt F)) : (⟨S100000x16, .f32⟩ : BufTy).Contents (Elt F) :=
  subf (F := F) (s := S100000x16) (φ := .f32) (lsmShift y) (lsmRepeat (Host.log (lsmColumn (lsmSum (lsmShift y)))))

/-- The log-softmax's first step: the reduce of max over the lanes from the splat of -inf. What is left of the typed
    references of the inlined function is transport along equations that hold by reflexivity. -/
theorem lsm_max (y : (⟨S100000x16, .f32⟩ : BufTy).Contents (Elt F)) (h95 : W (Proc.devRef .tc main_v95) = y) :
    after opsMax W (Proc.devRef .tc main_call5_v0)
      = Host.reduce FloatOps.maximumf y (constant (F := F) S_ .f32 0xFF800000#32) reducesTo_S100000x16_S100000_d1 h_S_ := by
  simp only [opsPre, opsDot1, opsL1, opsDot2, opsL2, opsMax, opsJoin, opsShift, opsSum, opsLog, ops, List.take_succ_cons, List.take_zero, List.drop_succ_cons, List.drop_zero]
  after_results_simp
  rw [h95]
  simp only [TRef.ofBuf, TRef.toBuf, cast_eq]
/-- Its second step: the join of the reduced maximum with a splat of -inf. -/
theorem lsm_join (r : (⟨S100000, .f32⟩ : BufTy).Contents (Elt F)) (h0 : W (Proc.devRef .tc main_call5_v0) = r) :
    after opsJoin W (Proc.devRef .tc main_call5_v2)
      = maximumf (F := F) (s := S100000) (φ := .f32) (broadcastInDim S100000 ![] bcast_S_S100000 (constant (F := F) S_ .f32 0xFF800000#32)) r := by
  simp only [opsPre, opsDot1, opsL1, opsDot2, opsL2, opsMax, opsJoin, opsShift, opsSum, opsLog, ops, List.take_succ_cons, List.take_zero, List.drop_succ_cons, List.drop_zero]
  after_results_simp
  rw [h0]
  rfl
theorem lsm_join_keep : after opsJoin W (Proc.devRef .tc main_v95) = W (Proc.devRef .tc main_v95) := by
  simp only [opsPre, opsDot1, opsL1, opsDot2, opsL2, opsMax, opsJoin, opsShift, opsSum, opsLog, ops, List.take_succ_cons, List.take_zero, List.drop_succ_cons, List.drop_zero]
  after_results_simp
theorem lsm_max_keep : after opsMax W (Proc.devRef .tc main_v95) = W (Proc.devRef .tc main_v95) := by
  simp only [opsPre, opsDot1, opsL1, opsDot2, opsL2, opsMax, opsJoin, opsShift, opsSum, opsLog, ops, List.take_succ_cons, List.take_zero, List.drop_succ_cons, List.drop_zero]
  after_results_simp

/-- Its third step: the entries less their row's maximum. -/
theorem lsm_shift (y : (⟨S100000x16, .f32⟩ : BufTy).Contents (Elt F)) (mx : (⟨S100000, .f32⟩ : BufTy).Contents (Elt F)) (h95 : W (Proc.devRef .tc main_v95) = y) (h2 : W (Proc.devRef .tc main_call5_v2) = mx) :
    after opsShift W (Proc.devRef .tc main_call5_v5)
      = subf (F := F) (s := S100000x16) (φ := .f32) y (lsmRepeat (lsmColumn mx)) := by
  simp only [opsPre, opsDot1, opsL1, opsDot2, opsL2, opsMax, opsJoin, opsShift, opsSum, opsLog, ops, List.take_succ_cons, List.take_zero, List.drop_succ_cons, List.drop_zero]
  after_results_simp
  rw [h95, h2]
  rfl

/-- Its fourth step: the row sum of the exponentials. -/
theorem lsm_sum (z : (⟨S100000x16, .f32⟩ : BufTy).Contents (Elt F)) (h5 : W (Proc.devRef .tc main_call5_v5) = z) :
    after opsSum W (Proc.devRef .tc main_call5_v7) = lsmSum z := by
  simp only [opsPre, opsDot1, opsL1, opsDot2, opsL2, opsMax, opsJoin, opsShift, opsSum, opsLog, ops, List.take_succ_cons, List.take_zero, List.drop_succ_cons, List.drop_zero]
  after_results_simp
  rw [h5]
  rfl
theorem lsm_sum_keep : after opsSum W (Proc.devRef .tc main_call5_v5) = W (Proc.devRef .tc main_call5_v5) := by
  simp only [opsPre, opsDot1, opsL1, opsDot2, opsL2, opsMax, opsJoin, opsShift, opsSum, opsLog, ops, List.take_succ_cons, List.take_zero, List.drop_succ_cons, List.drop_zero]
  after_results_simp

/-- Its last step: the shifted entries less the logarithm of the row sum. -/
theorem lsm_log (z : (⟨S100000x16, .f32⟩ : BufTy).Contents (Elt F)) (sm : (⟨S100000, .f32⟩ : BufTy).Contents (Elt F)) (h5 : W (Proc.devRef .tc main_call5_v5) = z) (h7 : W (Proc.devRef .tc main_call5_v7) = sm) :
    after opsLog W (Proc.devRef .tc main_v96)
      = subf (F := F) (s := S100000x16) (φ := .f32) z (lsmRepeat (Host.log (lsmColumn sm))) := by
  simp only [opsPre, opsDot1, opsL1, opsDot2, opsL2, opsMax, opsJoin, opsShift, opsSum, opsLog, ops, List.take_succ_cons, List.take_zero, List.drop_succ_cons, List.drop_zero]
  after_results_simp
  rw [h5, h7]
  rfl

/-! ## The whole line -/

variable (m : (ℓ : Loc nD τ sig) → Buf (Elt F) ℓ) (c : Dev nD)

/-- THE RESULT OF THE REFERENCE'S RUN: the fold of the launch contents through the line, read at the result buffer, is the
    log-softmax, as spelt above, of the reference's logits stage of @main's arguments. The pieces are chained in order; each hands the next the stages it reads,
    and the buffers a piece does not write are carried across it unchanged. -/
theorem result_fold :
    after (ops (F := F)) (launchContents m c) (Proc.devRef .tc main_v96)
      = lsmOut (val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  rw [after_ops]
  -- the first piece: the edge lists and weights; the arguments untouched
  have a0 : after opsPre (launchContents m c) (Proc.devRef .tc main_arg0) = (m ((c.tc : Thread nD τ).loc main_arg0)) := pre_arg _ _ (.inl rfl)
  have a3 : after opsPre (launchContents m c) (Proc.devRef .tc main_arg3) = (m ((c.tc : Thread nD τ).loc main_arg3)) := pre_arg _ _ (.inr (.inl rfl))
  have a4 : after opsPre (launchContents m c) (Proc.devRef .tc main_arg4) = (m ((c.tc : Thread nD τ).loc main_arg4)) := pre_arg _ _ (.inr (.inr (.inl rfl)))
  have a5 : after opsPre (launchContents m c) (Proc.devRef .tc main_arg5) = (m ((c.tc : Thread nD τ).loc main_arg5)) := pre_arg _ _ (.inr (.inr (.inr (.inl rfl))))
  have a6 : after opsPre (launchContents m c) (Proc.devRef .tc main_arg6) = (m ((c.tc : Thread nD τ).loc main_arg6)) := pre_arg _ _ (.inr (.inr (.inr (.inr rfl))))
  have s3 : after opsPre (launchContents m c) (Proc.devRef .tc main_v3) = val_main_v3 (F := F) (m ((c.tc : Thread nD τ).loc main_arg1)) := pre_v3 _
  have s6 : after opsPre (launchContents m c) (Proc.devRef .tc main_v6) = val_main_v6 (F := F) (m ((c.tc : Thread nD τ).loc main_arg1)) := pre_v6 _
  have s8 : after opsPre (launchContents m c) (Proc.devRef .tc main_v8) = val_main_v8 (F := F) (m ((c.tc : Thread nD τ).loc main_arg2)) := pre_v8 _
  -- the first product
  have p9 : after opsDot1 (after opsPre (launchContents m c)) (Proc.devRef .tc main_v9)
      = val_main_v9 (F := F) (m ((c.tc : Thread nD τ).loc main_arg0)) (m ((c.tc : Thread nD τ).loc main_arg3)) := by
    rw [dot1_v9, a0, a3]
  have d3 := (dot1_keep (after opsPre (launchContents m c)) main_v3 (.inl rfl)).trans s3
  have d6 := (dot1_keep (after opsPre (launchContents m c)) main_v6 (.inr (.inl rfl))).trans s6
  have d8 := (dot1_keep (after opsPre (launchContents m c)) main_v8 (.inr (.inr (.inl rfl)))).trans s8
  have d4 := (dot1_keep (after opsPre (launchContents m c)) main_arg4 (.inr (.inr (.inr (.inl rfl))))).trans a4
  have d5 := (dot1_keep (after opsPre (launchContents m c)) main_arg5 (.inr (.inr (.inr (.inr (.inl rfl)))))).trans a5
  have d6' := (dot1_keep (after opsPre (launchContents m c)) main_arg6 (.inr (.inr (.inr (.inr (.inr rfl)))))).trans a6
  -- the first layer's host part
  have h52 := layer1 (after opsDot1 (after opsPre (launchContents m c))) _ _ _ _ _ p9 d3 d6 d8 d4
  have l3 := (layer1_keep (after opsDot1 (after opsPre (launchContents m c))) main_v3 (.inl rfl)).trans d3
  have l6 := (layer1_keep (after opsDot1 (after opsPre (launchContents m c))) main_v6 (.inr (.inl rfl))).trans d6
  have l8 := (layer1_keep (after opsDot1 (after opsPre (launchContents m c))) main_v8 (.inr (.inr (.inl rfl)))).trans d8
  have l5 := (layer1_keep (after opsDot1 (after opsPre (launchContents m c))) main_arg5 (.inr (.inr (.inr (.inl rfl))))).trans d5
  have l6' := (layer1_keep (after opsDot1 (after opsPre (launchContents m c))) main_arg6 (.inr (.inr (.inr (.inr rfl))))).trans d6'
  -- the second product
  have p53 := dot2_v53 (after opsL1 (after opsDot1 (after opsPre (launchContents m c)))) _ _ _ _ _ h52
  rw [l5] at p53
  have n3 := (dot2_keep (after opsL1 (after opsDot1 (after opsPre (launchContents m c)))) main_v3 (.inl rfl)).trans l3
  have n6 := (dot2_keep (after opsL1 (after opsDot1 (after opsPre (launchContents m c)))) main_v6 (.inr (.inl rfl))).trans l6
  have n8 := (dot2_keep (after opsL1 (after opsDot1 (after opsPre (launchContents m c)))) main_v8 (.inr (.inr (.inl rfl)))).trans l8
  have n6' := (dot2_keep (after opsL1 (after opsDot1 (after opsPre (launchContents m c)))) main_arg6 (.inr (.inr (.inr rfl)))).trans l6'
  -- the second layer's host part, then the log-softmax in its five steps
  have h95 := layer2 (after opsDot2 (after opsL1 (after opsDot1 (after opsPre (launchContents m c))))) _ _ _ _ _ _ _ p53 n3 n6 n8 n6'
  have m0 := lsm_max _ _ h95
  have m95 := (lsm_max_keep (after opsL2 (after opsDot2 (after opsL1 (after opsDot1 (after opsPre (launchContents m c))))))).trans h95
  have m2 : after opsJoin (after opsMax (after opsL2 (after opsDot2 (after opsL1 (after opsDot1 (after opsPre (launchContents m c))))))) (Proc.devRef .tc main_call5_v2)
      = lsmMax (val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := lsm_join _ _ m0
  have j95 := (lsm_join_keep (after opsMax (after opsL2 (after opsDot2 (after opsL1 (after opsDot1 (after opsPre (launchContents m c)))))))).trans m95
  have z5 := lsm_shift _ _ _ j95 m2
  have e7 := lsm_sum _ _ z5
  have z5' := (lsm_sum_keep (after opsShift (after opsJoin (after opsMax (after opsL2 (after opsDot2 (after opsL1 (after opsDot1 (after opsPre (launchContents m c)))))))))).trans z5
  exact lsm_log _ _ _ z5' e7

end Cert.ReferenceIdeal.RefValue

end
-- ==== Proof.RefSoftmax.lean ====
/-
  The reference's log-softmax, read at an entry.

  jax's log_softmax over the last axis prints as fifteen host operations: the row maximum by a reduce of max from
  -inf, joined once more with a splat of -inf by max (which changes nothing: the fold already starts from that value,
  so it is at least it); the maximum kept as a column and repeated along the 16 lanes; z = x - m; exp z; the row sum
  by a reduce of + from 0; its logarithm, again kept as a column and repeated; and z - log(sum). Read at an entry
  (r, q) this is (x(r, q) - m_r) - log(sum over k of exp(x(r, k) - m_r)) with m_r the fold of max over row r from the
  word of -inf: the kernel's row-wise log-softmax of the same array. The start word is never evaluated, and no
  operation is opened: each is read at an index by its own lemma.
-/
import proofs.«123366_j53472342835547_1_alg».proof.Proof.RefValue
import proofs.«123366_j53472342835547_1_alg».proof.Proof.Region2
import Idealize.ShloMosaic.Lib.Pipeline.Value
import Idealize.ShloMosaic.Lib.ValueIdx
import Idealize.ShloMosaic.PureOps.Ideal.Laws
import Mathlib.Data.Finset.Fold

noncomputable section

namespace Cert.ReferenceIdeal.RefSoftmax

open Cert.ReferenceIdeal Cert.ReferenceIdeal.Gen Idealize.ShloMosaic
open Cert.ReferenceIdeal.RefValue (lsmMax lsmColumn lsmRepeat lsmShift lsmSum lsmOut)
open Cert.KernelIdeal.Region2 (at2 rowMax rowSumExp logSoftmax)

/-- The row of an entry, as an index of the per-row arrays. -/
abbrev rowIdx (i : S100000x16.Idx) : S100000.Idx := fun a => match a with
  | ⟨0, _⟩ => ⟨(i 0).val, (i 0).isLt⟩
/-- The row of an entry, as an index of the column arrays. -/
abbrev colIdx (i : S100000x16.Idx) : S100000x1.Idx := fun a => match a with
  | ⟨0, _⟩ => ⟨(i 0).val, (i 0).isLt⟩
  | ⟨1, _⟩ => ⟨0, Nat.one_pos⟩
/-- A column array's row, as an index of the per-row arrays. -/
abbrev colRow (k : S100000x1.Idx) : S100000.Idx := fun a => match a with
  | ⟨0, _⟩ => ⟨(k 0).val, (k 0).isLt⟩

/-- A column repeated along the lanes reads, at an entry, the column at the entry's row. -/
theorem repeat_at (w : (⟨S100000x1, .f32⟩ : BufTy).Contents (Elt Ideal)) (i : S100000x16.Idx) : lsmRepeat (F := Ideal) w i = w (colIdx i) := by
  unfold lsmRepeat
  exact broadcastInDim_apply _ bcast_S100000x1_S100000x16_0_1 w i (colIdx i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A row statistic kept as a column reads, at a row of the column, the statistic of that row. -/
theorem column_at (v : (⟨S100000, .f32⟩ : BufTy).Contents (Elt Ideal)) (k : S100000x1.Idx) : lsmColumn (F := Ideal) v k = v (colRow k) := by
  unfold lsmColumn
  exact broadcastInDim_apply _ bcast_S100000_S100000x1_0 v k (colRow k) (fun a => match a with
    | ⟨0, _⟩ => by show (k 0).val = if (100000 : Nat) = 1 then 0 else (k 0).val; rw [if_neg (by decide)])

/-- Reducing the lane axis away and putting lane `k` back at row `j` names entry `(j, k)` of the array. -/
theorem lane_inserted (h : S100000x16.Reduces [1] S100000) (j : S100000.Idx) (k : Fin 16) :
    h.lift j k = at2 ⟨(j 0).val, (j 0).isLt⟩ k := by
  funext a
  apply Fin.ext
  match a with
  | ⟨0, _⟩ => rfl
  | ⟨1, _⟩ => rfl

/-- THE ROW MAXIMUM at row `j`: the fold of max over the row from the word of -inf. The reduce of max is that fold; the
    splat of -inf it is joined with is the fold's own start value, which the fold is at least. -/
theorem max_at (y : (⟨S100000x16, .f32⟩ : BufTy).Contents (Elt Ideal)) (j : S100000.Idx) :
    lsmMax (F := Ideal) y j = rowMax y ⟨(j 0).val, (j 0).isLt⟩ := by
  unfold lsmMax
  rw [ValueIdx.maximumf_apply]
  have hR : S100000x16.Reduces [1] S100000 := by decide
  rw [Host.reduce_eq_fold_single (FloatOps.maximumf (F := Ideal) (φ := .f32)) y _ reducesTo_S100000x16_S100000_d1 hR h_S_ j,
    broadcastInDim_apply _ bcast_S_S100000 (constant (F := Ideal) S_ .f32 0xFF800000#32) j (fun a => a.elim0) (fun a => a.elim0)]
  simp only [ValueIdx.constant_apply]
  have hf : (Finset.univ : Finset (Fin 16)).fold max (Ideal.ofBits .f32 0xFF800000#32) (y ∘ hR.lift j)
      = rowMax y ⟨(j 0).val, (j 0).isLt⟩ := by
    unfold rowMax
    refine congrArg (fun f => (Finset.univ : Finset (Fin 16)).fold max (Ideal.ofBits .f32 0xFF800000#32) f) ?_
    funext k
    exact congrArg y (lane_inserted hR j k)
  refine (congrArg (fun t : EReal => max (Ideal.ofBits .f32 0xFF800000#32) t) hf).trans ?_
  refine max_eq_right ?_
  unfold rowMax
  exact (Finset.le_fold_max _).mpr (Or.inl le_rfl)

/-- THE SHIFTED ENTRY: the entry less its row's maximum. -/
theorem shift_at (y : (⟨S100000x16, .f32⟩ : BufTy).Contents (Elt Ideal)) (i : S100000x16.Idx) :
    lsmShift (F := Ideal) y i = y i - rowMax y ⟨(i 0).val, (i 0).isLt⟩ := by
  unfold lsmShift
  rw [ValueIdx.subf_apply, repeat_at, column_at, max_at]

/-- THE ROW SUM at row `j` of the exponentials of an array: the reduce of + from the word of 0 is the plain sum. -/
theorem sum_at (z : (⟨S100000x16, .f32⟩ : BufTy).Contents (Elt Ideal)) (j : S100000.Idx) :
    lsmSum (F := Ideal) z j = ∑ k : Fin 16, Ideal.exp (z (at2 ⟨(j 0).val, (j 0).isLt⟩ k)) := by
  unfold lsmSum
  have hR : S100000x16.Reduces [1] S100000 := by decide
  simp only [Host.reduceAdd, Ideal.hostReduceAdd_def]
  rw [Ideal.hostReduceAdd_single reducesTo_S100000x16_S100000_d1 hR]
  simp only [ValueIdx.constant_apply]
  rw [Ideal.ofBits_zero_f32, zero_add]
  refine Finset.sum_congr rfl fun k _ => ?_
  rw [lane_inserted hR j k]
  rfl

/-- The host's logarithm acts entry by entry. -/
theorem log_at (w : (⟨S100000x1, .f32⟩ : BufTy).Contents (Elt Ideal)) (k : S100000x1.Idx) : Host.log (F := Ideal) (s := S100000x1) (φ := .f32) w k = Ideal.log (w k) := rfl

/-- THE REFERENCE'S LOG-SOFTMAX is the row-wise log-softmax of the same array. -/
theorem lsmOut_eq (y : (⟨S100000x16, .f32⟩ : BufTy).Contents (Elt Ideal)) : lsmOut (F := Ideal) y = logSoftmax y := by
  funext i
  unfold lsmOut
  rw [ValueIdx.subf_apply, shift_at, repeat_at, log_at, column_at, sum_at]
  unfold logSoftmax rowSumExp
  refine congrArg (fun t : EReal => (y i - rowMax y ⟨(i 0).val, (i 0).isLt⟩) - Ideal.log t) ?_
  refine Finset.sum_congr rfl fun k _ => ?_
  rw [shift_at]

end Cert.ReferenceIdeal.RefSoftmax

end
-- ==== Proof.lean ====
/-
  A two-layer graph convolution with log-softmax, with its dense steps as three pipelined kernels, against the plain
  jnp reference: the certificate.

  The kernel's @main and the reference's @main run the same host operations (self-loop edges, the weighted in-degree
  and its guarded inverse square root, the edge normalisation, gather, scale, scatter-add, bias, rectifier) and differ
  in three places. Where the reference has the dot_general x · W1 the kernel has a pallas_call that multiplies 20 row
  blocks of x by W1; where the reference has h · W2 the kernel multiplies 10 row blocks of h by W2; and where the
  reference calls jax's log_softmax the kernel runs its own row-wise log-softmax over 10 row blocks. On the extended
  reals the change of float format in front of a product is the identity and a product into a zero accumulator is the
  plain sum over the contracted axis, so each blocked product is the dot_general entry by entry; and both log-softmax
  spellings are (x - m) - log(sum of exp(x - m)) with m the fold of max over the row from -inf (the reference joins m
  once more with -inf, which changes nothing). No law of the reals beyond that is used, so the precondition is never
  opened: the two results agree at every input, finite or not.

  The frames of the two kernel programs are the generated ones. The reference's frame is its run with the result
  dropped. The value claim sets the kernel's run, with its result read boundary by boundary (Proof/Bridge.lean), beside
  the reference's run, with its result read stretch by stretch (Proof/RefValue.lean) and its log-softmax read at an entry
  (Proof/RefSoftmax.lean): both end at the row-wise log-softmax of the reference's logits stage of the arguments.
-/
import proofs.«123366_j53472342835547_1_alg».proof.Defs
import proofs.«123366_j53472342835547_1_alg».proof.Proof.Gen.Kernel
import proofs.«123366_j53472342835547_1_alg».proof.Proof.Gen.Kernel.Frame
import proofs.«123366_j53472342835547_1_alg».proof.Proof.Gen.KernelIdeal
import proofs.«123366_j53472342835547_1_alg».proof.Proof.Gen.KernelIdeal.Frame
import proofs.«123366_j53472342835547_1_alg».proof.Proof.Gen.ReferenceIdeal
import proofs.«123366_j53472342835547_1_alg».proof.Proof.Gen.Pre_finite_inputs
import proofs.«123366_j53472342835547_1_alg».proof.Proof.KRun
import proofs.«123366_j53472342835547_1_alg».proof.Proof.Bridge
import proofs.«123366_j53472342835547_1_alg».proof.Proof.RefRun
import proofs.«123366_j53472342835547_1_alg».proof.Proof.RefValue
import proofs.«123366_j53472342835547_1_alg».proof.Proof.RefSoftmax
import Idealize.ShloMosaic.Adequacy
import Idealize.ShloMosaic.Init

noncomputable section

namespace Cert.Proof

open Idealize.ShloMosaic Idealize.SL.Sem

/-- The kernel as printed runs and leaves its arguments alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- From memories agreeing on the arguments both programs end with the result array at the row-wise log-softmax of the
    reference's logits stage of those arguments. -/
theorem algebraic : Cert.algebraic_KernelIdeal_ReferenceIdeal := by
  intro m ρ m' ρ' _ hagree
  refine ⟨fun c => Cert.KernelIdeal.Region2.logSoftmax (Cert.ReferenceIdeal.ReadP.val_main_v95 (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.Bridge.kernel_value m ρ c), (h c).2⟩)
      (Cert.KernelIdeal.GenV.run_value m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6⟩ := hagree c
    rw [(h c).1, Cert.ReferenceIdeal.RefValue.result_fold, Cert.ReferenceIdeal.RefSoftmax.lsmOut_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
